-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S1x1 : Shape := ⟨2, ![1, 1]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S1 : Shape := ⟨1, ![1]⟩
abbrev S_ : Shape := ⟨0, ![]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S1x1, .f32⟩
  | .hbm, ⟨3, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1x1, .f32⟩
  | .local _ .vmem, ⟨7, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_17 : BitVec 32 := 7#32
  let v38 : BitVec 1 := Scalar.cmpi .eq arg1 c7_i32_17
  let v39 : BitVec 1 := Scalar.andi v37 v38
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BitsGridCases.lean ====
/-
  The loss kernel on its 8 × 8 grid of tiles, point by point. The grid walks the 1024 × 1024 tiles of W in
  row-major order: point t is tile (t / 8, t % 8). The body keeps a 1 × 1 running sum in scratch: it clears
  the sum at the first point (t = 0), adds the tile's weighted sum at every point, and at the last point
  (t = 63) divides the sum by 2n and stores the quotient into the 1 × 1 output block, which is written back
  there and nowhere else. So the body has three cases — first, inner, last — told apart by two conditions on
  the coordinates, decided here over the 64 points. Also here: the buffers' contents as the region finds them
  (no host operation precedes the region), each input window's block, and the staging memrefs by name.
-/
import proofs.«135635_j21105469292703_1_alg».proof.Proof.Gen.Kernel.Launch
import proofs.«135635_j21105469292703_1_alg».proof.Proof.Gen.Kernel.Skeleton
import proofs.«135635_j21105469292703_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_W (c : Dev nD) : V m c main_arg0 = m ((c : Thread nD τ).loc main_arg0) := rfl
theorem V_Y (c : Dev nD) : V m c main_arg1 = m ((c : Thread nD τ).loc main_arg1) := rfl

/-- The one host line after the region (the reshape of the 1 × 1 result to a scalar) allocates nothing. -/
theorem reshape_fresh : (hostOps1 : List (HloOp τ sig (Elt F))).Forall fun op => op.fresh = ∅ := by
  simp only [List.Forall]; repeat' constructor

/-- @main is the region followed by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The two conditions, over the grid -/

/-- "This is the first tile": both coordinates are zero (the body's first `scf.if`, its scalar chain written out). -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- "This is the last tile": both coordinates are 7 (the body's second `scf.if`). -/
abbrev atLast (i : grid0.Coords) : Prop := k0_cond2 i = 1#1
/-- It holds at point 63 only. -/
theorem atLast_iff : ∀ t : Fin cfg0.N, atLast (grid0.coords t) ↔ t.val = 63 :=
  (by decide +kernel : ∀ t : Fin grid0.N, atLast (grid0.coords t) ↔ t.val = 63)

/-! ## Where the windows are idle -/

theorem live_W : ∀ t : Fin cfg0.N, cfg0.idle 0 (grid0.coords t) = false := by decide +kernel
theorem live_Yi : ∀ t : Fin cfg0.N, cfg0.idle 1 (grid0.coords t) = false := by decide +kernel
theorem live_Yj : ∀ t : Fin cfg0.N, cfg0.idle 2 (grid0.coords t) = false := by decide +kernel
/-- Away from the last tile the body stores nothing into the output block, -/
theorem idle_out : ∀ t : Fin cfg0.N, ¬atLast (grid0.coords t) → cfg0.idle 3 (grid0.coords t) = true := by decide +kernel
/-- and the pipeline does not write it back there; -/
theorem noFlush_out : ∀ t : Fin cfg0.N, ¬atLast (grid0.coords t) → (cfg0.win 3).flush t = false := by decide +kernel
/-- at the last tile it does both. -/
theorem live_out : ∀ t : Fin cfg0.N, atLast (grid0.coords t) → cfg0.idle 3 (grid0.coords t) = false := by decide +kernel
theorem flush_out : ∀ t : Fin cfg0.N, atLast (grid0.coords t) → (cfg0.win 3).flush t = true := by decide +kernel

/-! ## The staging memrefs and the scratch, by name -/

abbrev msW (t : Fin cfg0.N) : Memref sig .tc .vmem S1024x1024 .f32 := win0_0.stage (cfg0.slots t 0)
abbrev hsW (t : Fin cfg0.N) : (msW t).IsWhole := hstage0_0 ((cfg0.slots t 0).cast nbuf0_0)
abbrev msYi (t : Fin cfg0.N) : Memref sig .tc .vmem S1024x64 .f32 := win0_1.stage (cfg0.slots t 1)
abbrev hsYi (t : Fin cfg0.N) : (msYi t).IsWhole := hstage0_1 ((cfg0.slots t 1).cast nbuf0_1)
abbrev msYj (t : Fin cfg0.N) : Memref sig .tc .vmem S1024x64 .f32 := win0_2.stage (cfg0.slots t 2)
abbrev hsYj (t : Fin cfg0.N) : (msYj t).IsWhole := hstage0_2 ((cfg0.slots t 2).cast nbuf0_2)
abbrev msOut (t : Fin cfg0.N) : Memref sig .tc .vmem S1x1 .f32 := win0_3.stage (cfg0.slots t 3)
abbrev hsOut (t : Fin cfg0.N) : (msOut t).IsWhole := hstage0_3 ((cfg0.slots t 3).cast nbuf0_3)
/-- The running sum's 1 × 1 scratch buffer. -/
abbrev sumM : Memref sig .tc .vmem S1x1 .f32 := Memref.whole cc0_scratch0

/-- What a kernel of this kind may use between points and need not describe: here, the scratch at some contents and
    the generator register at some state. -/
theorem PhiA_eq (c : Dev nD) :
    (Pipeline.ΦA spec0 c : sProp 𝕄)
      = iprop(iprop((∃ d, owns (c : Thread nD τ) sumM fullShare d)) ∗ (∃ r, prngReg c r)) := by
  unfold Pipeline.ΦA; rw [scopedRest0_eq]; simp only [sumM, owns_whole]; try rfl

/-! ## The input blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of W, the row block of Y and the column block of Y at point `t`, at their literal types. -/
abbrev wTile (c : Dev nD) (t : Fin cfg0.N) : Vec F S1024x1024 .f32 := iblk m c 0 t
abbrev yRows (c : Dev nD) (t : Fin cfg0.N) : Vec F S1024x64 .f32 := iblk m c 1 t
abbrev yCols (c : Dev nD) (t : Fin cfg0.N) : Vec F S1024x64 .f32 := iblk m c 2 t

/-- An input window's current staging buffer holds its block at every point, fetched there or not, for any proof
    data whose array is the region-entry contents and whose body leaves the block in place. -/
theorem before_W_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_Yi_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_Yj_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Kernel.Tiles

end
-- ==== Proof.BitsRunFirst.lean ====
/-
  The loss kernel's body at the first tile, run once on any whole staging buffers: the scratch, whatever it held (`a`), is cleared and then holds this tile's weighted sum over the cleared value.
  The body's own text is run symbolically; what is proved by hand is only that the one value left in the
  1 × 1 scratch (and, at the last tile, in the 1 × 1 output block) is the named arithmetic of the loaded blocks.
-/
import proofs.«135635_j21105469292703_1_alg».proof.Proof.BitsGridCases
import Idealize.ShloMosaic.Lib.Pipeline.Value

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runFirst (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : atFirst i) (hc1 : ¬atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (o) ∗ owns (c : Thread nD τ) arg6 fullShare (k0_pay3 yi yj w (k0_pay2 (F := F)))) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz inb_S1x1_S1x1_0_0 y⟩), View.canon_cons_unit_zero hz]
  sl_unfold_words
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.Kernel.Tiles

end
-- ==== Proof.BitsRunInner.lean ====
/-
  The loss kernel's body at an inner tile, run once on any whole staging buffers: neither the first tile nor the last. The scratch holds the running sum `a`; the body adds this tile's weighted sum to it and touches nothing else.
  The body's own text is run symbolically; what is proved by hand is only that the one value left in the
  1 × 1 scratch (and, at the last tile, in the 1 × 1 output block) is the named arithmetic of the loaded blocks.
-/
import proofs.«135635_j21105469292703_1_alg».proof.Proof.BitsGridCases
import Idealize.ShloMosaic.Lib.Pipeline.Value

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runInner (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : ¬atFirst i) (hc1 : ¬atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (o) ∗ owns (c : Thread nD τ) arg6 fullShare (k0_pay3 yi yj w a)) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hz inb_S1x1_S1x1_0_0 y⟩), View.canon_unit_zero hz]
  sl_unfold_words
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.Kernel.Tiles

end
-- ==== Proof.BitsRunLast.lean ====
/-
  The loss kernel's body at the last tile, run once on any whole staging buffers: the scratch's running sum `a` takes this tile's weighted sum, and the output block, whatever it held (`o`), receives the new sum divided by 2n.
  The body's own text is run symbolically; what is proved by hand is only that the one value left in the
  1 × 1 scratch (and, at the last tile, in the 1 × 1 output block) is the named arithmetic of the loaded blocks.
-/
import proofs.«135635_j21105469292703_1_alg».proof.Proof.BitsGridCases
import Idealize.ShloMosaic.Lib.Pipeline.Value

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runLast (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : ¬atFirst i) (hc1 : atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (k0_pay1 (k0_pay3 yi yj w a)) ∗ owns (c : Thread nD τ) arg6 fullShare (k0_pay3 yi yj w a)) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hz inb_S1x1_S1x1_0_0 y⟩), View.canon_unit_zero hz]
    sl_unfold_words
    simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]
  iexists _; isplitr
  swap; · iexact H6
  ipureintro
  sl_unfold_words
  rw [View.read_writes_eq_canon _ _ _ (fun y => ⟨_, List.mem_singleton_self _, View.mem_set_unit_zero hz inb_S1x1_S1x1_0_0 y⟩), View.canon_unit_zero hz]
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.Kernel.Tiles

end
-- ==== Proof.BitsAccumulate.lean ====
/-
  The running sum, point by point, and the pipeline's proof data built on it.

  After point n the 1 × 1 scratch holds  s_n,  where  s_0 = (tile 0's weighted sum added to the cleared value)  and
  s_{n+1} = (tile n+1's weighted sum added to s_n): the body's own arithmetic (`k0_pay3`) iterated along the grid.
  The output block is stored once, at the last point, with  s_63 / 2n  (`k0_pay1`). The region invariant tracks the
  scratch at s_{n-1} before point n (anything before point 0). The two windows on Y read one array: each holds
  half of it, the tile window holds W whole.
-/
import proofs.«135635_j21105469292703_1_alg».proof.Proof.BitsRunFirst
import proofs.«135635_j21105469292703_1_alg».proof.Proof.BitsRunInner
import proofs.«135635_j21105469292703_1_alg».proof.Proof.BitsRunLast

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after point `n`: the body's accumulation iterated from the cleared value. -/
def sumAt (c : Dev nD) : (n : ℕ) → n < cfg0.N → Vec F S1x1 .f32
  | 0, h => k0_pay3 (yRows m c ⟨0, h⟩) (yCols m c ⟨0, h⟩) (wTile m c ⟨0, h⟩) (k0_pay2 (F := F))
  | n + 1, h => k0_pay3 (yRows m c ⟨n + 1, h⟩) (yCols m c ⟨n + 1, h⟩) (wTile m c ⟨n + 1, h⟩) (sumAt c n (Nat.lt_of_succ_lt h))

theorem sumAt_zero (c : Dev nD) (h : 0 < cfg0.N) :
    sumAt m c 0 h = k0_pay3 (yRows m c ⟨0, h⟩) (yCols m c ⟨0, h⟩) (wTile m c ⟨0, h⟩) (k0_pay2 (F := F)) := rfl
theorem sumAt_succ (c : Dev nD) (n : ℕ) (h : n + 1 < cfg0.N) :
    sumAt m c (n + 1) h = k0_pay3 (yRows m c ⟨n + 1, h⟩) (yCols m c ⟨n + 1, h⟩) (wTile m c ⟨n + 1, h⟩) (sumAt m c n (Nat.lt_of_succ_lt h)) := rfl

/-- The region invariant before point `n`: before the first point the scratch at anything; afterwards at the running sum
    the point before left; the generator register at some state throughout. -/
def PhiS (c : Dev nD) : (n : ℕ) → n ≤ cfg0.N → sProp 𝕄
  | 0, _ => Pipeline.ΦA spec0 c
  | n + 1, hn => iprop(iprop(owns (c : Thread nD τ) sumM fullShare (sumAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sumM fullShare (sumAt m c n hn)) ∗ (∃ r, prngReg c r)) := rfl
theorem PhiS_pos (c : Dev nD) (n : ℕ) (h : n ≤ cfg0.N) (hz : n ≠ 0) :
    PhiS m c n h = iprop(iprop(owns (c : Thread nD τ) sumM fullShare (sumAt m c (n - 1) (by omega))) ∗ (∃ r, prngReg c r)) := by
  cases n with
  | zero => exact absurd rfl hz
  | succ n => rfl

/-- The proof data: the arrays as the region finds them; each input's buffer at its block; the output block at the
    running sum over 2n (read only at the last point, where it is stored and written back); the invariant above;
    W held whole, each of the two windows on Y holding half of Y; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (sumAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem q_W (c : Dev nD) : (dats m 0 c).q 0 = fullShare := rfl
theorem q_Yi (c : Dev nD) : (dats m 0 c).q 1 = fullShare.left := rfl
theorem q_Yj (c : Dev nD) : (dats m 0 c).q 2 = fullShare.right := rfl
theorem after_W (c : Dev nD) (t : Fin cfg0.N) : (dats m 0 c).after 0 t = iblk m c 0 t := by dsimp only [dats]
theorem after_Yi (c : Dev nD) (t : Fin cfg0.N) : (dats m 0 c).after 1 t = iblk m c 1 t := by dsimp only [dats]
theorem after_Yj (c : Dev nD) (t : Fin cfg0.N) : (dats m 0 c).after 2 t = iblk m c 2 t := by dsimp only [dats]
theorem after_out (c : Dev nD) (t : Fin cfg0.N) : (dats m 0 c).after 3 t = k0_pay1 (sumAt m c t.val t.isLt) := by dsimp only [dats]

/-- The invariant at a point's start, restated at the point's number. -/
private theorem PhiS_castSucc (c : Dev nD) (t : Fin cfg0.N) :
    (dats m 0 c).Φ t.castSucc = PhiS m c t.val (Nat.le_of_lt t.isLt) := by
  dsimp only [dats]; simp only [Fin.coe_castSucc]

/-- At the first point the running sum is this tile's weighted sum over the cleared value. -/
private theorem sumAt_first (c : Dev nD) (t : Fin cfg0.N) (h : t.val = 0) :
    sumAt m c t.val t.isLt = k0_pay3 (yRows m c t) (yCols m c t) (wTile m c t) (k0_pay2 (F := F)) := by
  obtain ⟨n, hn⟩ := t
  cases n with
  | zero => rfl
  | succ n => exact absurd h (Nat.succ_ne_zero n)

/-- At any later point it is this tile's weighted sum over what the point before left. -/
private theorem sumAt_next (c : Dev nD) (t : Fin cfg0.N) (h : t.val ≠ 0) :
    sumAt m c t.val t.isLt
      = k0_pay3 (yRows m c t) (yCols m c t) (wTile m c t) (sumAt m c (t.val - 1) (Nat.lt_of_le_of_lt (Nat.sub_le _ _) t.isLt)) := by
  obtain ⟨n, hn⟩ := t
  cases n with
  | zero => exact absurd rfl h
  | succ n => rfl

/-- Each input's current staging buffer holds its block at every point. -/
private theorem before_W (c : Dev nD) (t : Fin cfg0.N) (d) : (dats m 0 c).before 0 t d = iblk m c 0 t :=
  before_W_of m (dats m 0 c) (A_eq m c 0) (after_W m c) t d
private theorem before_Yi (c : Dev nD) (t : Fin cfg0.N) (d) : (dats m 0 c).before 1 t d = iblk m c 1 t :=
  before_Yi_of m (dats m 0 c) (A_eq m c 1) (after_Yi m c) t d
private theorem before_Yj (c : Dev nD) (t : Fin cfg0.N) (d) : (dats m 0 c).before 2 t d = iblk m c 2 t :=
  before_Yj_of m (dats m 0 c) (A_eq m c 2) (after_Yj m c) t d

/-- What the body is called with at point t: the invariant, what the core owes, the four windows' current buffers, -/
private def bodyPre (c : Dev nD) (t : Fin cfg0.N) : sProp 𝕄 :=
  iprop((dats m 0 c).Φ t.castSucc ∗ (dats m 0 c).owesAt () t.castSucc
    ∗ (∃ d, owns (c : Thread nD τ) (msW t) fullShare ((dats m 0 c).before 0 t d))
    ∗ (∃ d, owns (c : Thread nD τ) (msYi t) fullShare ((dats m 0 c).before 1 t d))
    ∗ (∃ d, owns (c : Thread nD τ) (msYj t) fullShare ((dats m 0 c).before 2 t d))
    ∗ (∃ d, owns (c : Thread nD τ) (msOut t) fullShare ((dats m 0 c).before 3 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_W, before_Yi, before_Yj]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msW t) fullShare ((dats m 0 c).after 0 t) from by
    unfold Dat.leavesExact; rw [live_W t], after_W]
  rw [show (dats m 0 c).leavesExact 1 t = owns (c : Thread nD τ) (msYi t) fullShare ((dats m 0 c).after 1 t) from by
    unfold Dat.leavesExact; rw [live_Yi t], after_Yi]
  rw [show (dats m 0 c).leavesExact 2 t = owns (c : Thread nD τ) (msYj t) fullShare ((dats m 0 c).after 2 t) from by
    unfold Dat.leavesExact; rw [live_Yj t], after_Yj]
  have hN : t.val < 64 := lt_of_lt_of_eq t.isLt (show cfg0.N = 64 from N_0)
  by_cases h0 : t.val = 0
  · -- the first tile: the scratch is cleared, whatever it held
    have hc0 : atFirst (grid0.coords t) := (atFirst_iff t).mpr h0
    have hc1 : ¬atLast (grid0.coords t) := fun h => by have := (atLast_iff t).mp h; omega
    rw [Dat.leavesExact_idle (dats m 0 c) 3 t (idle_out t hc1) (noFlush_out t hc1)]
    rw [sumAt_first m c t h0]
    rw [PhiS_castSucc m c t, PhiS_zero m c _ _ h0, PhiA_eq]
    iintro ⟨⟨⟨%a, HS⟩, Hg⟩, Ho, ⟨%d0, H0⟩, ⟨%d1, H1⟩, ⟨%d2, H2⟩, ⟨%d3, H3⟩⟩
    iapply (runFirst c (grid0.coords t) (msW t) (hsW t) (msYi t) (hsYi t) (msYj t) (hsYj t) (msOut t) (hsOut t) sumM (Memref.isWhole_whole _)
      hc0 hc1 (wTile m c t) (yRows m c t) (yCols m c t) ((dats m 0 c).before 3 t d3) a Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexists _; iexact H3
  · have hc0 : ¬atFirst (grid0.coords t) := fun h => h0 ((atFirst_iff t).mp h)
    rw [sumAt_next m c t h0]
    rw [PhiS_castSucc m c t, PhiS_pos m c _ _ h0]
    by_cases h1 : t.val = 63
    · -- the last tile: the sum is completed, and the output block stored with it over 2n
      have hc1 : atLast (grid0.coords t) := (atLast_iff t).mpr h1
      rw [show (dats m 0 c).leavesExact 3 t = owns (c : Thread nD τ) (msOut t) fullShare ((dats m 0 c).after 3 t) from by
        unfold Dat.leavesExact; rw [live_out t hc1], after_out, sumAt_next m c t h0]
      iintro ⟨⟨HS, Hg⟩, Ho, ⟨%d0, H0⟩, ⟨%d1, H1⟩, ⟨%d2, H2⟩, ⟨%d3, H3⟩⟩
      iapply (runLast c (grid0.coords t) (msW t) (hsW t) (msYi t) (hsYi t) (msYj t) (hsYj t) (msOut t) (hsOut t) sumM (Memref.isWhole_whole _)
        hc0 hc1 (wTile m c t) (yRows m c t) (yCols m c t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexact H3
    · -- an inner tile: the sum grows, the output block is left alone
      have hc1 : ¬atLast (grid0.coords t) := fun h => h1 ((atLast_iff t).mp h)
      rw [Dat.leavesExact_idle (dats m 0 c) 3 t (idle_out t hc1) (noFlush_out t hc1)]
      iintro ⟨⟨HS, Hg⟩, Ho, ⟨%d0, H0⟩, ⟨%d1, H1⟩, ⟨%d2, H2⟩, ⟨%d3, H3⟩⟩
      iapply (runInner c (grid0.coords t) (msW t) (hsW t) (msYi t) (hsYi t) (msYj t) (hsYj t) (msOut t) (hsOut t) sumM (Memref.isWhole_whole _)
        hc0 hc1 (wTile m c t) (yRows m c t) (yCols m c t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

end Cert.Kernel.Tiles

end
-- ==== Proof.BitsLaunch.lean ====
/-
  The launch: @main is the one kernel region followed by the reshape of its 1 × 1 result to a scalar. Two of the
  region's four windows read one array (Y, by row block and by column block), so the launch deals that array's
  full share in halves between the two windows, and the reshape afterwards is run holding just the two buffers
  it touches (the region's result, whole since its window is the only one on it, and the scalar). Stated for any
  proof data of the pipeline with those shares: the run ends with every window's array at what the proof data
  compute for it, and the scalar at the reshape of the result array.
-/
import proofs.«135635_j21105469292703_1_alg».proof.Proof.BitsGridCases

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef)

/-! ## The arrays dealt to the windows -/

theorem isOut_W : (cfg0.win 0).isOut = false := rfl
theorem isOut_Yi : (cfg0.win 1).isOut = false := rfl
theorem isOut_Yj : (cfg0.win 2).isOut = false := rfl
theorem isOut_out : (cfg0.win 3).isOut = true := rfl

/-- The three buffers behind the four windows, each whole at the full share, are the windows' arrays at their
    shares: W whole, Y in two halves, the result whole. -/
theorem split_arrays {c : Dev nD} (dat : Dat τ (Elt F) Unit ℕ (UR sig nD τ) ℕ cfg0 c)
    (hq0 : dat.q 0 = fullShare) (hq1 : dat.q 1 = fullShare.left) (hq2 : dat.q 2 = fullShare.right)
    (hA : ∀ w, dat.A w = V m c (arrRef spec0 w)) :
    (Pipeline.arrBufs spec0 c (V m c) : sProp 𝕄) ⊢ dat.arrays (dat.arrAt · 0) := by
  have hs0 : dat.share 0 = fullShare := by unfold Dat.share; rw [isOut_W]; exact hq0
  have hs1 : dat.share 1 = fullShare.left := by unfold Dat.share; rw [isOut_Yi]; exact hq1
  have hs2 : dat.share 2 = fullShare.right := by unfold Dat.share; rw [isOut_Yj]; exact hq2
  have hs3 : dat.share 3 = fullShare := by unfold Dat.share; rw [isOut_out]; rfl
  unfold Pipeline.arrBufs Dat.arrays
  rw [show ∀ Φ : Ref sig .tc → sProp 𝕄, bigSep (Finset.univ.image (arrRef spec0)) Φ = iprop(Φ main_arg0 ∗ Φ main_arg1 ∗ Φ main_v0) from
    fun Φ => bigSep_eq_bigSepL_of_eq [main_arg0, main_arg1, main_v0] (by decide) (by decide) Φ, bigSep_W0]
  rw [(arr_whole0 0).set_eq_univ, (arr_whole0 1).set_eq_univ, (arr_whole0 3).set_eq_univ, hs0, hs1, hs2, hs3]
  beta_reduce
  rw [show dat.arrAt 0 0 = V m c (arrRef spec0 0) from hA 0, show dat.arrAt 1 0 = V m c (arrRef spec0 1) from hA 1,
    show dat.arrAt 2 0 = V m c (arrRef spec0 2) from hA 2, show dat.arrAt 3 0 = V m c (arrRef spec0 3) from hA 3]
  iintro ⟨HW, HY, HO⟩
  ihave HY := (pointsTo_share (PosShare.mem_left_op_right fullShare)).1 $$ HY
  icases HY with ⟨HY₁, HY₂⟩
  isplitl [HW]; · iexact HW
  isplitl [HY₁]; · iexact HY₁
  isplitl [HY₂]; · iexact HY₂
  iexact HO

/-! ## The reshape after the region -/

/-- Core `c`'s buffers as the reshape finds them: the region's result array at `o`, every other buffer as at entry. -/
def exitVal (c : Dev nD) (o : Buf (Elt F) ((c : Thread nD τ).loc main_v0)) : Valuation τ sig (Elt F) :=
  Function.update (V0 m c) (Proc.devRef .tc main_v0) o

/-- The scalar the reshape writes when the result array holds `o`. -/
def outScalar (c : Dev nD) (o : Buf (Elt F) ((c : Thread nD τ).loc main_v0)) : Buf (Elt F) ((c : Thread nD τ).loc main_v1) :=
  StableHlo.after hostOps1 (exitVal m c o) (Proc.devRef .tc main_v1)

/-- The two buffers the reshape touches. -/
abbrev reshapeRefs : Finset (DevRef τ sig) := {Proc.devRef .tc main_v0, Proc.devRef .tc main_v1}

theorem held_pair (c : Dev nD) (W : Valuation τ sig (Elt F)) :
    (StableHlo.held (c.tc : Thread nD τ) reshapeRefs W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held reshapeRefs
  rw [bigSep_insert (by rw [Finset.mem_singleton]; exact StableHlo.devRef_ne_of_ne (by decide)), bigSep_singleton]
  rfl

theorem reshape_sub : ∀ ops ∈ ([hostOps1] : List (List (HloOp τ sig (Elt F)))), ∀ op ∈ ops, op.bufs ⊆ reshapeRefs := by
  intro ops hops op hop
  simp only [List.mem_cons, List.mem_nil_iff, or_false] at hops
  subst hops
  simp only [hostOps1, List.mem_cons, List.mem_nil_iff, or_false] at hop
  subst hop
  rw [StableHlo.reshape_bufs]

theorem reshape_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp reshape_fresh) op hop

set_option backward.isDefEq.respectTransparency.types false in
/-- From the region's exit — the boundary, the windows' arrays at their final contents and shares, the scalar as at
    entry — the reshape runs and hands back the arrays as they were and the scalar at the reshape of the result. -/
theorem tail_reshape {c : Dev nD} (dat : Dat τ (Elt F) Unit ℕ (UR sig nD τ) ℕ cfg0 c) (𝒱₀ : Variants) (Q' : PUnit → sProp 𝕄) :
    iprop((iprop(dat.arrays (dat.arrAt · cfg0.N) ∗ (((c.tc : Thread nD τ).loc main_v1) ↦{fullShare} outScalar m c (dat.arrAt 3 cfg0.N))) -∗ Q' ⟨⟩)
        ∗ boundary (c.tc : Thread nD τ) ∗ dat.arrays (dat.arrAt · cfg0.N) ∗ (((c.tc : Thread nD τ).loc main_v1) ↦{fullShare} V m c main_v1))
      ⊢ wp frame (wpE (Pipeline.defs (fun q => (cfgs q).toPCfg (Val := Elt F)) defs₀) (Variants.lift 𝒱₀) (c.tc : Thread nD τ) none) Set.univ
          (Pipeline.chain (([hostOps1] : List (List (HloOp τ sig (Elt F)))).map StableHlo.seq ++ [])) Q' := by
  have hs3 : dat.share 3 = fullShare := by unfold Dat.share; rw [isOut_out]; rfl
  have hW : (StableHlo.held (c.tc : Thread nD τ) reshapeRefs (exitVal m c (dat.arrAt 3 cfg0.N)) : sProp 𝕄)
      = iprop((((c.tc : Thread nD τ).loc main_v0) ↦{fullShare} dat.arrAt 3 cfg0.N) ∗ (((c.tc : Thread nD τ).loc main_v1) ↦{fullShare} V m c main_v1)) := by
    rw [held_pair]; unfold exitVal
    rw [Function.update_self, Function.update_of_ne (StableHlo.devRef_ne_of_ne (by decide)).symm]
  have hW' : (StableHlo.held (c.tc : Thread nD τ) reshapeRefs (StableHlo.after ([hostOps1] : List (List (HloOp τ sig (Elt F)))).flatten (exitVal m c (dat.arrAt 3 cfg0.N))) : sProp 𝕄)
      = iprop((((c.tc : Thread nD τ).loc main_v0) ↦{fullShare} dat.arrAt 3 cfg0.N) ∗ (((c.tc : Thread nD τ).loc main_v1) ↦{fullShare} outScalar m c (dat.arrAt 3 cfg0.N))) := by
    rw [held_pair]
    congr 1
  unfold Dat.arrays
  rw [bigSep_W0, (arr_whole0 3).set_eq_univ, hs3]
  beta_reduce
  iintro ⟨Hk, Hb, ⟨H0, H1, H2, H3⟩, HZ⟩
  iapply (Pipeline.wp_seqs_then (fun q => (cfgs q).toPCfg (Val := Elt F)) defs₀ 𝒱₀ c reshapeRefs [] [hostOps1] reshape_sub reshape_fresh' (exitVal m c (dat.arrAt 3 cfg0.N))) $$ [Hb H3 HZ]
  · rw [hW]
    isplitl [Hb]; · iexact Hb
    isplitl [H3]; · iexact H3
    iexact HZ
  iintro Hb
  rw [Pipeline.chain_nil, wp_pure, hW']
  imodintro
  iapply Hk
  icases Hb with ⟨-, H3, HZ⟩
  isplitr [HZ]
  · isplitl [H0]; · iexact H0
    isplitl [H1]; · iexact H1
    isplitl [H2]; · iexact H2
    iexact H3
  iexact HZ

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates; every window's array ends at what the proof data compute for it and the scalar at the reshape
    of the result array. For any proof data that hold W whole and Y in the two halves, owe nothing, start from the
    region-entry contents, and whose invariant the launch's holdings establish and yield back. -/
theorem run_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare) (hq1 : ∀ c, (dats 0 c).q 1 = fullShare.left) (hq2 : ∀ c, (dats 0 c).q 2 = fullShare.right)
    (howed : ∀ c t, (dats 0 c).owed t = 0)
    (hA : ∀ c w, (dats 0 c).A w = V m c (arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_v1) = outScalar m c ((dats 0 c).arrAt 3 cfg0.N)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) dats () hinj 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) hinj)
          (Pipeline.launchToks (Pipeline.pin (fun q => (cfgs q).toPCfg (Val := Elt F)) (fun q => (cfgs q).toPCfg_adm)) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split_arrays m (dats 0 c) (hq0 c) (hq1 c) (hq2 c) (hA c))
    (hpf := fun _ k => k.elim0)
    (X := fun c => iprop(∃ r, prngReg c r)) (Y := fun c => iprop(∃ r, prngReg c r))
    (Z := fun c => iprop((((c.tc : Thread nD τ).loc main_v1) ↦{fullShare} V m c main_v1)))
    (Z' := fun c => iprop((((c.tc : Thread nD τ).loc main_v1) ↦{fullShare} outScalar m c ((dats 0 c).arrAt 3 cfg0.N))))
    (hX := fun c => by
      rw [Pipeline.unscopedRestP_none, unscopedRest0_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_reshape m (dats 0 c) Variants.none Q')
    (QY := fun c s => s.mem ((c.tc : Thread nD τ).loc main_v1) = outScalar m c ((dats 0 c).arrAt 3 cfg0.N))
    (hY := fun c s' => by
      have h := pointsTo_read_all (Ix := Unit) (Name := ℕ) (U := UR sig nD τ) (Lvl := ℕ) ({main_v1} : Finset (Ref sig .tc)) (fun b => (c.tc : Thread nD τ).loc b)
        (fun b => StableHlo.after hostOps1 (exitVal m c ((dats 0 c).arrAt 3 cfg0.N)) (Proc.devRef .tc b)) s'
      rw [bigSep_singleton] at h
      iintro ⟨-, HU, HSI⟩
      imodintro
      ihave H := h $$ [HU HSI]
      · isplitl [HU]; · iexact HU
        iexact HSI
      icases H with ⟨%hm, HSI⟩
      isplitr; · ipureintro; exact hm main_v1 (Finset.mem_singleton_self _)
      iexact HSI)
    (hQ := fun s h c => ⟨(h c).1, (h c).2.2⟩)

end Cert.Kernel.Tiles

end
-- ==== Proof.BitsKernelRun.lean ====
/-
  The kernel program's run, read: the one write-back of the 1 × 1 result block happens at the last point and writes
  the last running sum over 2n, and that block is the whole result array; the two argument arrays are read only.
  So @main ends with the scalar at the reshape of that value and the arguments unchanged.
-/
import proofs.«135635_j21105469292703_1_alg».proof.Proof.BitsAccumulate
import proofs.«135635_j21105469292703_1_alg».proof.Proof.BitsLaunch
import Idealize.ShloMosaic.Lib.Pipeline.Value

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point, 63, is on the grid. -/
theorem last_lt : 63 < cfg0.N := by rw [show cfg0.N = 64 from N_0]; decide

/-- The result array after the run: the running sum after the last point, over 2n. -/
abbrev lossBlock (c : Dev nD) : Buf (Elt F) ((c : Thread nD τ).loc main_v0) := k0_pay1 (sumAt m c 63 last_lt)

/-- The one write-back (at the last point) writes it, and its block is the whole array. -/
theorem final_out (c : Dev nD) : (dats m 0 c).arrAt 3 cfg0.N = lossBlock m c := by
  have hN : cfg0.N = 64 := N_0
  -- the only write-back is the last point's, and it writes the result through zero offsets
  have hG : ∀ t, (cfg0.win 3).flush t = true →
      (dats m 0 c).flushed 3 t = ((cfg0.win 3).blk t).view.read (Elt F) (lossBlock m c) := by
    intro t hf
    have h63 : t.val = 63 := by have := (flush0_3 t).mp hf; have := t.isLt; omega
    obtain rfl : t = ⟨63, last_lt⟩ := Fin.ext h63
    show (cfg0.win 3).cut (grid0.coords ⟨63, last_lt⟩) ((dats m 0 c).after 3 ⟨63, last_lt⟩) = _
    rw [after_out]
    have hz : (fun a => win0_3.index ⟨63, last_lt⟩ a * main_v0.ty.shape.size a) = fun _ => 0 :=
      funext fun a => by fin_cases a <;> decide +kernel
    exact (Memref.read_access_unit_zero (Elt F) main_v0 hz (fun a => by rw [congrFun hz a]; simp) (lossBlock m c)).symm
  -- the last point's block is the whole 1 × 1 array
  refine (dats m 0 c).arrAt_eq_of_cover 3 (lossBlock m c) hG fun i => ⟨⟨63, last_lt⟩, (flush0_3 _).mpr rfl, ?_⟩
  show i ∈ ((View.whole main_v0).slice (win0_3.rect ⟨63, last_lt⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index ⟨63, last_lt⟩ 0 * win0_3.size 0 ≤ (i 0 : Nat)
      ∧ (i 0 : Nat) < win0_3.index ⟨63, last_lt⟩ 0 * win0_3.size 0 + win0_3.xsize (grid0.coords ⟨63, last_lt⟩) 0
    rw [show win0_3.index ⟨63, last_lt⟩ 0 * win0_3.size 0 = 0 from by decide +kernel,
      show win0_3.xsize (grid0.coords ⟨63, last_lt⟩) 0 = 1 from by decide +kernel]
    omega
  | ⟨1, _⟩ =>
    show win0_3.index ⟨63, last_lt⟩ 1 * win0_3.size 1 ≤ (i 1 : Nat)
      ∧ (i 1 : Nat) < win0_3.index ⟨63, last_lt⟩ 1 * win0_3.size 1 + win0_3.xsize (grid0.coords ⟨63, last_lt⟩) 1
    rw [show win0_3.index ⟨63, last_lt⟩ 1 * win0_3.size 1 = 0 from by decide +kernel,
      show win0_3.xsize (grid0.coords ⟨63, last_lt⟩) 1 = 1 from by decide +kernel]
    omega

/-- The run, read: the scalar at the reshape of the result, both arguments unchanged. -/
theorem run_main : θ_run defs (onTc (τ := τ) (main (F := F))) ⟨m, fun _ => 0, ρ⟩ fun r => ∀ c : Dev nD,
      r.2.mem ((c.tc : Thread nD τ).loc main_v1) = outScalar m c (lossBlock m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).2, final_out],
      ((h c).1 0).trans (((dats m 0 c).arrAt_in 0 rfl _).trans ((A_eq m c 0).trans (V_W m c))),
      ((h c).1 1).trans (((dats m 0 c).arrAt_in 1 rfl _).trans ((A_eq m c 1).trans (V_Y m c)))⟩)
    (run_of m ρ (dats m) (fun c => (body_obligation m c).loose) (q_W m) (q_Yi m) (q_Yj m) (fun _ _ => rfl) (A_eq m) (hin m) (hout m))

end Cert.Kernel.Tiles

end
-- ==== Proof.GridCases.lean ====
/-
  The loss kernel on its 8 × 8 grid of tiles, point by point. The grid walks the 1024 × 1024 tiles of W in
  row-major order: point t is tile (t / 8, t % 8). The body keeps a 1 × 1 running sum in scratch: it clears
  the sum at the first point (t = 0), adds the tile's weighted sum at every point, and at the last point
  (t = 63) divides the sum by 2n and stores the quotient into the 1 × 1 output block, which is written back
  there and nowhere else. So the body has three cases — first, inner, last — told apart by two conditions on
  the coordinates, decided here over the 64 points. Also here: the buffers' contents as the region finds them
  (no host operation precedes the region), each input window's block, and the staging memrefs by name.
-/
import proofs.«135635_j21105469292703_1_alg».proof.Proof.Gen.KernelIdeal.Launch
import proofs.«135635_j21105469292703_1_alg».proof.Proof.Gen.KernelIdeal.Skeleton
import proofs.«135635_j21105469292703_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_W (c : Dev nD) : V m c main_arg0 = m ((c : Thread nD τ).loc main_arg0) := rfl
theorem V_Y (c : Dev nD) : V m c main_arg1 = m ((c : Thread nD τ).loc main_arg1) := rfl

/-- The one host line after the region (the reshape of the 1 × 1 result to a scalar) allocates nothing. -/
theorem reshape_fresh : (hostOps1 : List (HloOp τ sig (Elt F))).Forall fun op => op.fresh = ∅ := by
  simp only [List.Forall]; repeat' constructor

/-- @main is the region followed by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The two conditions, over the grid -/

/-- "This is the first tile": both coordinates are zero (the body's first `scf.if`, its scalar chain written out). -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- "This is the last tile": both coordinates are 7 (the body's second `scf.if`). -/
abbrev atLast (i : grid0.Coords) : Prop := k0_cond2 i = 1#1
/-- It holds at point 63 only. -/
theorem atLast_iff : ∀ t : Fin cfg0.N, atLast (grid0.coords t) ↔ t.val = 63 :=
  (by decide +kernel : ∀ t : Fin grid0.N, atLast (grid0.coords t) ↔ t.val = 63)

/-! ## Where the windows are idle -/

theorem live_W : ∀ t : Fin cfg0.N, cfg0.idle 0 (grid0.coords t) = false := by decide +kernel
theorem live_Yi : ∀ t : Fin cfg0.N, cfg0.idle 1 (grid0.coords t) = false := by decide +kernel
theorem live_Yj : ∀ t : Fin cfg0.N, cfg0.idle 2 (grid0.coords t) = false := by decide +kernel
/-- Away from the last tile the body stores nothing into the output block, -/
theorem idle_out : ∀ t : Fin cfg0.N, ¬atLast (grid0.coords t) → cfg0.idle 3 (grid0.coords t) = true := by decide +kernel
/-- and the pipeline does not write it back there; -/
theorem noFlush_out : ∀ t : Fin cfg0.N, ¬atLast (grid0.coords t) → (cfg0.win 3).flush t = false := by decide +kernel
/-- at the last tile it does both. -/
theorem live_out : ∀ t : Fin cfg0.N, atLast (grid0.coords t) → cfg0.idle 3 (grid0.coords t) = false := by decide +kernel
theorem flush_out : ∀ t : Fin cfg0.N, atLast (grid0.coords t) → (cfg0.win 3).flush t = true := by decide +kernel

/-! ## The staging memrefs and the scratch, by name -/

abbrev msW (t : Fin cfg0.N) : Memref sig .tc .vmem S1024x1024 .f32 := win0_0.stage (cfg0.slots t 0)
abbrev hsW (t : Fin cfg0.N) : (msW t).IsWhole := hstage0_0 ((cfg0.slots t 0).cast nbuf0_0)
abbrev msYi (t : Fin cfg0.N) : Memref sig .tc .vmem S1024x64 .f32 := win0_1.stage (cfg0.slots t 1)
abbrev hsYi (t : Fin cfg0.N) : (msYi t).IsWhole := hstage0_1 ((cfg0.slots t 1).cast nbuf0_1)
abbrev msYj (t : Fin cfg0.N) : Memref sig .tc .vmem S1024x64 .f32 := win0_2.stage (cfg0.slots t 2)
abbrev hsYj (t : Fin cfg0.N) : (msYj t).IsWhole := hstage0_2 ((cfg0.slots t 2).cast nbuf0_2)
abbrev msOut (t : Fin cfg0.N) : Memref sig .tc .vmem S1x1 .f32 := win0_3.stage (cfg0.slots t 3)
abbrev hsOut (t : Fin cfg0.N) : (msOut t).IsWhole := hstage0_3 ((cfg0.slots t 3).cast nbuf0_3)
/-- The running sum's 1 × 1 scratch buffer. -/
abbrev sumM : Memref sig .tc .vmem S1x1 .f32 := Memref.whole cc0_scratch0

/-- What a kernel of this kind may use between points and need not describe: here, the scratch at some contents and
    the generator register at some state. -/
theorem PhiA_eq (c : Dev nD) :
    (Pipeline.ΦA spec0 c : sProp 𝕄)
      = iprop(iprop((∃ d, owns (c : Thread nD τ) sumM fullShare d)) ∗ (∃ r, prngReg c r)) := by
  unfold Pipeline.ΦA; rw [scopedRest0_eq]; simp only [sumM, owns_whole]; try rfl

/-! ## The input blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of W, the row block of Y and the column block of Y at point `t`, at their literal types. -/
abbrev wTile (c : Dev nD) (t : Fin cfg0.N) : Vec F S1024x1024 .f32 := iblk m c 0 t
abbrev yRows (c : Dev nD) (t : Fin cfg0.N) : Vec F S1024x64 .f32 := iblk m c 1 t
abbrev yCols (c : Dev nD) (t : Fin cfg0.N) : Vec F S1024x64 .f32 := iblk m c 2 t

/-- An input window's current staging buffer holds its block at every point, fetched there or not, for any proof
    data whose array is the region-entry contents and whose body leaves the block in place. -/
theorem before_W_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_Yi_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_Yj_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Tiles

end
-- ==== Proof.RunFirst.lean ====
/-
  The loss kernel's body at the first tile, run once on any whole staging buffers: the scratch, whatever it held (`a`), is cleared and then holds this tile's weighted sum over the cleared value.
  The body's own text is run symbolically; what is proved by hand is only that the one value left in the
  1 × 1 scratch (and, at the last tile, in the 1 × 1 output block) is the named arithmetic of the loaded blocks.
-/
import proofs.«135635_j21105469292703_1_alg».proof.Proof.GridCases
import Idealize.ShloMosaic.Lib.Pipeline.Value

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runFirst (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : atFirst i) (hc1 : ¬atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (o) ∗ owns (c : Thread nD τ) arg6 fullShare (k0_pay3 yi yj w (k0_pay2 (F := F)))) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz inb_S1x1_S1x1_0_0 y⟩), View.canon_cons_unit_zero hz]
  sl_unfold_words
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.KernelIdeal.Tiles

end
-- ==== Proof.RunInner.lean ====
/-
  The loss kernel's body at an inner tile, run once on any whole staging buffers: neither the first tile nor the last. The scratch holds the running sum `a`; the body adds this tile's weighted sum to it and touches nothing else.
  The body's own text is run symbolically; what is proved by hand is only that the one value left in the
  1 × 1 scratch (and, at the last tile, in the 1 × 1 output block) is the named arithmetic of the loaded blocks.
-/
import proofs.«135635_j21105469292703_1_alg».proof.Proof.GridCases
import Idealize.ShloMosaic.Lib.Pipeline.Value

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runInner (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : ¬atFirst i) (hc1 : ¬atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (o) ∗ owns (c : Thread nD τ) arg6 fullShare (k0_pay3 yi yj w a)) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hz inb_S1x1_S1x1_0_0 y⟩), View.canon_unit_zero hz]
  sl_unfold_words
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.KernelIdeal.Tiles

end
-- ==== Proof.RunLast.lean ====
/-
  The loss kernel's body at the last tile, run once on any whole staging buffers: the scratch's running sum `a` takes this tile's weighted sum, and the output block, whatever it held (`o`), receives the new sum divided by 2n.
  The body's own text is run symbolically; what is proved by hand is only that the one value left in the
  1 × 1 scratch (and, at the last tile, in the 1 × 1 output block) is the named arithmetic of the loaded blocks.
-/
import proofs.«135635_j21105469292703_1_alg».proof.Proof.GridCases
import Idealize.ShloMosaic.Lib.Pipeline.Value

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runLast (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole)
    (hc0 : ¬atFirst i) (hc1 : atLast i)
    (w : Vec F S1024x1024 .f32) (yi yj : Vec F S1024x64 .f32) (o a : Vec F S1x1 .f32) (E : Set ℕ) (K : PUnit → sProp 𝕄) :
    iprop(owns (c : Thread nD τ) arg2 fullShare w ∗ owns (c : Thread nD τ) arg3 fullShare yi ∗ owns (c : Thread nD τ) arg4 fullShare yj
        ∗ owns (c : Thread nD τ) arg5 fullShare o ∗ owns (c : Thread nD τ) arg6 fullShare a
        ∗ (iprop(owns (c : Thread nD τ) arg2 fullShare w ∗ owns (c : Thread nD τ) arg3 fullShare yi ∗ owns (c : Thread nD τ) arg4 fullShare yj
            ∗ owns (c : Thread nD τ) arg5 fullShare (k0_pay1 (k0_pay3 yi yj w a)) ∗ owns (c : Thread nD τ) arg6 fullShare (k0_pay3 yi yj w a)) -∗ K ⟨⟩))
      ⊢ wp frame (wpE (defs₀ (F := F)) Variants.none c none) E (cc0__loss_kernel i arg2 harg2 arg3 harg3 arg4 harg4 arg5 harg5 arg6 harg6) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  have hz : (![0, 0] : Fin S1x1.rank → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hz inb_S1x1_S1x1_0_0 y⟩), View.canon_unit_zero hz]
    sl_unfold_words
    simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]
  iexists _; isplitr
  swap; · iexact H6
  ipureintro
  sl_unfold_words
  rw [View.read_writes_eq_canon _ _ _ (fun y => ⟨_, List.mem_singleton_self _, View.mem_set_unit_zero hz inb_S1x1_S1x1_0_0 y⟩), View.canon_unit_zero hz]
  simp only [View.readAt_eq_ld, harg2.read_unread, harg3.read_unread, harg4.read_unread, harg5.read_unread, harg6.read_unread,
    View.ld_unit_zero (S := S1024x64) hz, View.ld_unit_zero (S := S1024x1024) hz, View.ld_unit_zero (S := S1x1) hz,
    View.readCov_unit_zero (S := S1x1) _ hz]

end Cert.KernelIdeal.Tiles

end
-- ==== Proof.Accumulate.lean ====
/-
  The running sum, point by point, and the pipeline's proof data built on it.

  After point n the 1 × 1 scratch holds  s_n,  where  s_0 = (tile 0's weighted sum added to the cleared value)  and
  s_{n+1} = (tile n+1's weighted sum added to s_n): the body's own arithmetic (`k0_pay3`) iterated along the grid.
  The output block is stored once, at the last point, with  s_63 / 2n  (`k0_pay1`). The region invariant tracks the
  scratch at s_{n-1} before point n (anything before point 0). The two windows on Y read one array: each holds
  half of it, the tile window holds W whole.
-/
import proofs.«135635_j21105469292703_1_alg».proof.Proof.RunFirst
import proofs.«135635_j21105469292703_1_alg».proof.Proof.RunInner
import proofs.«135635_j21105469292703_1_alg».proof.Proof.RunLast

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after point `n`: the body's accumulation iterated from the cleared value. -/
def sumAt (c : Dev nD) : (n : ℕ) → n < cfg0.N → Vec F S1x1 .f32
  | 0, h => k0_pay3 (yRows m c ⟨0, h⟩) (yCols m c ⟨0, h⟩) (wTile m c ⟨0, h⟩) (k0_pay2 (F := F))
  | n + 1, h => k0_pay3 (yRows m c ⟨n + 1, h⟩) (yCols m c ⟨n + 1, h⟩) (wTile m c ⟨n + 1, h⟩) (sumAt c n (Nat.lt_of_succ_lt h))

theorem sumAt_zero (c : Dev nD) (h : 0 < cfg0.N) :
    sumAt m c 0 h = k0_pay3 (yRows m c ⟨0, h⟩) (yCols m c ⟨0, h⟩) (wTile m c ⟨0, h⟩) (k0_pay2 (F := F)) := rfl
theorem sumAt_succ (c : Dev nD) (n : ℕ) (h : n + 1 < cfg0.N) :
    sumAt m c (n + 1) h = k0_pay3 (yRows m c ⟨n + 1, h⟩) (yCols m c ⟨n + 1, h⟩) (wTile m c ⟨n + 1, h⟩) (sumAt m c n (Nat.lt_of_succ_lt h)) := rfl

/-- The region invariant before point `n`: before the first point the scratch at anything; afterwards at the running sum
    the point before left; the generator register at some state throughout. -/
def PhiS (c : Dev nD) : (n : ℕ) → n ≤ cfg0.N → sProp 𝕄
  | 0, _ => Pipeline.ΦA spec0 c
  | n + 1, hn => iprop(iprop(owns (c : Thread nD τ) sumM fullShare (sumAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sumM fullShare (sumAt m c n hn)) ∗ (∃ r, prngReg c r)) := rfl
theorem PhiS_pos (c : Dev nD) (n : ℕ) (h : n ≤ cfg0.N) (hz : n ≠ 0) :
    PhiS m c n h = iprop(iprop(owns (c : Thread nD τ) sumM fullShare (sumAt m c (n - 1) (by omega))) ∗ (∃ r, prngReg c r)) := by
  cases n with
  | zero => exact absurd rfl hz
  | succ n => rfl

/-- The proof data: the arrays as the region finds them; each input's buffer at its block; the output block at the
    running sum over 2n (read only at the last point, where it is stored and written back); the invariant above;
    W held whole, each of the two windows on Y holding half of Y; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (sumAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem q_W (c : Dev nD) : (dats m 0 c).q 0 = fullShare := rfl
theorem q_Yi (c : Dev nD) : (dats m 0 c).q 1 = fullShare.left := rfl
theorem q_Yj (c : Dev nD) : (dats m 0 c).q 2 = fullShare.right := rfl
theorem after_W (c : Dev nD) (t : Fin cfg0.N) : (dats m 0 c).after 0 t = iblk m c 0 t := by dsimp only [dats]
theorem after_Yi (c : Dev nD) (t : Fin cfg0.N) : (dats m 0 c).after 1 t = iblk m c 1 t := by dsimp only [dats]
theorem after_Yj (c : Dev nD) (t : Fin cfg0.N) : (dats m 0 c).after 2 t = iblk m c 2 t := by dsimp only [dats]
theorem after_out (c : Dev nD) (t : Fin cfg0.N) : (dats m 0 c).after 3 t = k0_pay1 (sumAt m c t.val t.isLt) := by dsimp only [dats]

/-- The invariant at a point's start, restated at the point's number. -/
private theorem PhiS_castSucc (c : Dev nD) (t : Fin cfg0.N) :
    (dats m 0 c).Φ t.castSucc = PhiS m c t.val (Nat.le_of_lt t.isLt) := by
  dsimp only [dats]; simp only [Fin.coe_castSucc]

/-- At the first point the running sum is this tile's weighted sum over the cleared value. -/
private theorem sumAt_first (c : Dev nD) (t : Fin cfg0.N) (h : t.val = 0) :
    sumAt m c t.val t.isLt = k0_pay3 (yRows m c t) (yCols m c t) (wTile m c t) (k0_pay2 (F := F)) := by
  obtain ⟨n, hn⟩ := t
  cases n with
  | zero => rfl
  | succ n => exact absurd h (Nat.succ_ne_zero n)

/-- At any later point it is this tile's weighted sum over what the point before left. -/
private theorem sumAt_next (c : Dev nD) (t : Fin cfg0.N) (h : t.val ≠ 0) :
    sumAt m c t.val t.isLt
      = k0_pay3 (yRows m c t) (yCols m c t) (wTile m c t) (sumAt m c (t.val - 1) (Nat.lt_of_le_of_lt (Nat.sub_le _ _) t.isLt)) := by
  obtain ⟨n, hn⟩ := t
  cases n with
  | zero => exact absurd rfl h
  | succ n => rfl

/-- Each input's current staging buffer holds its block at every point. -/
private theorem before_W (c : Dev nD) (t : Fin cfg0.N) (d) : (dats m 0 c).before 0 t d = iblk m c 0 t :=
  before_W_of m (dats m 0 c) (A_eq m c 0) (after_W m c) t d
private theorem before_Yi (c : Dev nD) (t : Fin cfg0.N) (d) : (dats m 0 c).before 1 t d = iblk m c 1 t :=
  before_Yi_of m (dats m 0 c) (A_eq m c 1) (after_Yi m c) t d
private theorem before_Yj (c : Dev nD) (t : Fin cfg0.N) (d) : (dats m 0 c).before 2 t d = iblk m c 2 t :=
  before_Yj_of m (dats m 0 c) (A_eq m c 2) (after_Yj m c) t d

/-- What the body is called with at point t: the invariant, what the core owes, the four windows' current buffers, -/
private def bodyPre (c : Dev nD) (t : Fin cfg0.N) : sProp 𝕄 :=
  iprop((dats m 0 c).Φ t.castSucc ∗ (dats m 0 c).owesAt () t.castSucc
    ∗ (∃ d, owns (c : Thread nD τ) (msW t) fullShare ((dats m 0 c).before 0 t d))
    ∗ (∃ d, owns (c : Thread nD τ) (msYi t) fullShare ((dats m 0 c).before 1 t d))
    ∗ (∃ d, owns (c : Thread nD τ) (msYj t) fullShare ((dats m 0 c).before 2 t d))
    ∗ (∃ d, owns (c : Thread nD τ) (msOut t) fullShare ((dats m 0 c).before 3 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_W, before_Yi, before_Yj]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msW t) fullShare ((dats m 0 c).after 0 t) from by
    unfold Dat.leavesExact; rw [live_W t], after_W]
  rw [show (dats m 0 c).leavesExact 1 t = owns (c : Thread nD τ) (msYi t) fullShare ((dats m 0 c).after 1 t) from by
    unfold Dat.leavesExact; rw [live_Yi t], after_Yi]
  rw [show (dats m 0 c).leavesExact 2 t = owns (c : Thread nD τ) (msYj t) fullShare ((dats m 0 c).after 2 t) from by
    unfold Dat.leavesExact; rw [live_Yj t], after_Yj]
  have hN : t.val < 64 := lt_of_lt_of_eq t.isLt (show cfg0.N = 64 from N_0)
  by_cases h0 : t.val = 0
  · -- the first tile: the scratch is cleared, whatever it held
    have hc0 : atFirst (grid0.coords t) := (atFirst_iff t).mpr h0
    have hc1 : ¬atLast (grid0.coords t) := fun h => by have := (atLast_iff t).mp h; omega
    rw [Dat.leavesExact_idle (dats m 0 c) 3 t (idle_out t hc1) (noFlush_out t hc1)]
    rw [sumAt_first m c t h0]
    rw [PhiS_castSucc m c t, PhiS_zero m c _ _ h0, PhiA_eq]
    iintro ⟨⟨⟨%a, HS⟩, Hg⟩, Ho, ⟨%d0, H0⟩, ⟨%d1, H1⟩, ⟨%d2, H2⟩, ⟨%d3, H3⟩⟩
    iapply (runFirst c (grid0.coords t) (msW t) (hsW t) (msYi t) (hsYi t) (msYj t) (hsYj t) (msOut t) (hsOut t) sumM (Memref.isWhole_whole _)
      hc0 hc1 (wTile m c t) (yRows m c t) (yCols m c t) ((dats m 0 c).before 3 t d3) a Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    iexists _; iexact H3
  · have hc0 : ¬atFirst (grid0.coords t) := fun h => h0 ((atFirst_iff t).mp h)
    rw [sumAt_next m c t h0]
    rw [PhiS_castSucc m c t, PhiS_pos m c _ _ h0]
    by_cases h1 : t.val = 63
    · -- the last tile: the sum is completed, and the output block stored with it over 2n
      have hc1 : atLast (grid0.coords t) := (atLast_iff t).mpr h1
      rw [show (dats m 0 c).leavesExact 3 t = owns (c : Thread nD τ) (msOut t) fullShare ((dats m 0 c).after 3 t) from by
        unfold Dat.leavesExact; rw [live_out t hc1], after_out, sumAt_next m c t h0]
      iintro ⟨⟨HS, Hg⟩, Ho, ⟨%d0, H0⟩, ⟨%d1, H1⟩, ⟨%d2, H2⟩, ⟨%d3, H3⟩⟩
      iapply (runLast c (grid0.coords t) (msW t) (hsW t) (msYi t) (hsYi t) (msYj t) (hsYj t) (msOut t) (hsOut t) sumM (Memref.isWhole_whole _)
        hc0 hc1 (wTile m c t) (yRows m c t) (yCols m c t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexact H3
    · -- an inner tile: the sum grows, the output block is left alone
      have hc1 : ¬atLast (grid0.coords t) := fun h => h1 ((atLast_iff t).mp h)
      rw [Dat.leavesExact_idle (dats m 0 c) 3 t (idle_out t hc1) (noFlush_out t hc1)]
      iintro ⟨⟨HS, Hg⟩, Ho, ⟨%d0, H0⟩, ⟨%d1, H1⟩, ⟨%d2, H2⟩, ⟨%d3, H3⟩⟩
      iapply (runInner c (grid0.coords t) (msW t) (hsW t) (msYi t) (hsYi t) (msYj t) (hsYj t) (msOut t) (hsOut t) sumM (Memref.isWhole_whole _)
        hc0 hc1 (wTile m c t) (yRows m c t) (yCols m c t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

end Cert.KernelIdeal.Tiles

end
-- ==== Proof.Launch.lean ====
/-
  The launch: @main is the one kernel region followed by the reshape of its 1 × 1 result to a scalar. Two of the
  region's four windows read one array (Y, by row block and by column block), so the launch deals that array's
  full share in halves between the two windows, and the reshape afterwards is run holding just the two buffers
  it touches (the region's result, whole since its window is the only one on it, and the scalar). Stated for any
  proof data of the pipeline with those shares: the run ends with every window's array at what the proof data
  compute for it, and the scalar at the reshape of the result array.
-/
import proofs.«135635_j21105469292703_1_alg».proof.Proof.GridCases

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef)

/-! ## The arrays dealt to the windows -/

theorem isOut_W : (cfg0.win 0).isOut = false := rfl
theorem isOut_Yi : (cfg0.win 1).isOut = false := rfl
theorem isOut_Yj : (cfg0.win 2).isOut = false := rfl
theorem isOut_out : (cfg0.win 3).isOut = true := rfl

/-- The three buffers behind the four windows, each whole at the full share, are the windows' arrays at their
    shares: W whole, Y in two halves, the result whole. -/
theorem split_arrays {c : Dev nD} (dat : Dat τ (Elt F) Unit ℕ (UR sig nD τ) ℕ cfg0 c)
    (hq0 : dat.q 0 = fullShare) (hq1 : dat.q 1 = fullShare.left) (hq2 : dat.q 2 = fullShare.right)
    (hA : ∀ w, dat.A w = V m c (arrRef spec0 w)) :
    (Pipeline.arrBufs spec0 c (V m c) : sProp 𝕄) ⊢ dat.arrays (dat.arrAt · 0) := by
  have hs0 : dat.share 0 = fullShare := by unfold Dat.share; rw [isOut_W]; exact hq0
  have hs1 : dat.share 1 = fullShare.left := by unfold Dat.share; rw [isOut_Yi]; exact hq1
  have hs2 : dat.share 2 = fullShare.right := by unfold Dat.share; rw [isOut_Yj]; exact hq2
  have hs3 : dat.share 3 = fullShare := by unfold Dat.share; rw [isOut_out]; rfl
  unfold Pipeline.arrBufs Dat.arrays
  rw [show ∀ Φ : Ref sig .tc → sProp 𝕄, bigSep (Finset.univ.image (arrRef spec0)) Φ = iprop(Φ main_arg0 ∗ Φ main_arg1 ∗ Φ main_v0) from
    fun Φ => bigSep_eq_bigSepL_of_eq [main_arg0, main_arg1, main_v0] (by decide) (by decide) Φ, bigSep_W0]
  rw [(arr_whole0 0).set_eq_univ, (arr_whole0 1).set_eq_univ, (arr_whole0 3).set_eq_univ, hs0, hs1, hs2, hs3]
  beta_reduce
  rw [show dat.arrAt 0 0 = V m c (arrRef spec0 0) from hA 0, show dat.arrAt 1 0 = V m c (arrRef spec0 1) from hA 1,
    show dat.arrAt 2 0 = V m c (arrRef spec0 2) from hA 2, show dat.arrAt 3 0 = V m c (arrRef spec0 3) from hA 3]
  iintro ⟨HW, HY, HO⟩
  ihave HY := (pointsTo_share (PosShare.mem_left_op_right fullShare)).1 $$ HY
  icases HY with ⟨HY₁, HY₂⟩
  isplitl [HW]; · iexact HW
  isplitl [HY₁]; · iexact HY₁
  isplitl [HY₂]; · iexact HY₂
  iexact HO

/-! ## The reshape after the region -/

/-- Core `c`'s buffers as the reshape finds them: the region's result array at `o`, every other buffer as at entry. -/
def exitVal (c : Dev nD) (o : Buf (Elt F) ((c : Thread nD τ).loc main_v0)) : Valuation τ sig (Elt F) :=
  Function.update (V0 m c) (Proc.devRef .tc main_v0) o

/-- The scalar the reshape writes when the result array holds `o`. -/
def outScalar (c : Dev nD) (o : Buf (Elt F) ((c : Thread nD τ).loc main_v0)) : Buf (Elt F) ((c : Thread nD τ).loc main_v1) :=
  StableHlo.after hostOps1 (exitVal m c o) (Proc.devRef .tc main_v1)

/-- The two buffers the reshape touches. -/
abbrev reshapeRefs : Finset (DevRef τ sig) := {Proc.devRef .tc main_v0, Proc.devRef .tc main_v1}

theorem held_pair (c : Dev nD) (W : Valuation τ sig (Elt F)) :
    (StableHlo.held (c.tc : Thread nD τ) reshapeRefs W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held reshapeRefs
  rw [bigSep_insert (by rw [Finset.mem_singleton]; exact StableHlo.devRef_ne_of_ne (by decide)), bigSep_singleton]
  rfl

theorem reshape_sub : ∀ ops ∈ ([hostOps1] : List (List (HloOp τ sig (Elt F)))), ∀ op ∈ ops, op.bufs ⊆ reshapeRefs := by
  intro ops hops op hop
  simp only [List.mem_cons, List.mem_nil_iff, or_false] at hops
  subst hops
  simp only [hostOps1, List.mem_cons, List.mem_nil_iff, or_false] at hop
  subst hop
  rw [StableHlo.reshape_bufs]

theorem reshape_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp reshape_fresh) op hop

set_option backward.isDefEq.respectTransparency.types false in
/-- From the region's exit — the boundary, the windows' arrays at their final contents and shares, the scalar as at
    entry — the reshape runs and hands back the arrays as they were and the scalar at the reshape of the result. -/
theorem tail_reshape {c : Dev nD} (dat : Dat τ (Elt F) Unit ℕ (UR sig nD τ) ℕ cfg0 c) (𝒱₀ : Variants) (Q' : PUnit → sProp 𝕄) :
    iprop((iprop(dat.arrays (dat.arrAt · cfg0.N) ∗ (((c.tc : Thread nD τ).loc main_v1) ↦{fullShare} outScalar m c (dat.arrAt 3 cfg0.N))) -∗ Q' ⟨⟩)
        ∗ boundary (c.tc : Thread nD τ) ∗ dat.arrays (dat.arrAt · cfg0.N) ∗ (((c.tc : Thread nD τ).loc main_v1) ↦{fullShare} V m c main_v1))
      ⊢ wp frame (wpE (Pipeline.defs (fun q => (cfgs q).toPCfg (Val := Elt F)) defs₀) (Variants.lift 𝒱₀) (c.tc : Thread nD τ) none) Set.univ
          (Pipeline.chain (([hostOps1] : List (List (HloOp τ sig (Elt F)))).map StableHlo.seq ++ [])) Q' := by
  have hs3 : dat.share 3 = fullShare := by unfold Dat.share; rw [isOut_out]; rfl
  have hW : (StableHlo.held (c.tc : Thread nD τ) reshapeRefs (exitVal m c (dat.arrAt 3 cfg0.N)) : sProp 𝕄)
      = iprop((((c.tc : Thread nD τ).loc main_v0) ↦{fullShare} dat.arrAt 3 cfg0.N) ∗ (((c.tc : Thread nD τ).loc main_v1) ↦{fullShare} V m c main_v1)) := by
    rw [held_pair]; unfold exitVal
    rw [Function.update_self, Function.update_of_ne (StableHlo.devRef_ne_of_ne (by decide)).symm]
  have hW' : (StableHlo.held (c.tc : Thread nD τ) reshapeRefs (StableHlo.after ([hostOps1] : List (List (HloOp τ sig (Elt F)))).flatten (exitVal m c (dat.arrAt 3 cfg0.N))) : sProp 𝕄)
      = iprop((((c.tc : Thread nD τ).loc main_v0) ↦{fullShare} dat.arrAt 3 cfg0.N) ∗ (((c.tc : Thread nD τ).loc main_v1) ↦{fullShare} outScalar m c (dat.arrAt 3 cfg0.N))) := by
    rw [held_pair]
    congr 1
  unfold Dat.arrays
  rw [bigSep_W0, (arr_whole0 3).set_eq_univ, hs3]
  beta_reduce
  iintro ⟨Hk, Hb, ⟨H0, H1, H2, H3⟩, HZ⟩
  iapply (Pipeline.wp_seqs_then (fun q => (cfgs q).toPCfg (Val := Elt F)) defs₀ 𝒱₀ c reshapeRefs [] [hostOps1] reshape_sub reshape_fresh' (exitVal m c (dat.arrAt 3 cfg0.N))) $$ [Hb H3 HZ]
  · rw [hW]
    isplitl [Hb]; · iexact Hb
    isplitl [H3]; · iexact H3
    iexact HZ
  iintro Hb
  rw [Pipeline.chain_nil, wp_pure, hW']
  imodintro
  iapply Hk
  icases Hb with ⟨-, H3, HZ⟩
  isplitr [HZ]
  · isplitl [H0]; · iexact H0
    isplitl [H1]; · iexact H1
    isplitl [H2]; · iexact H2
    iexact H3
  iexact HZ

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates; every window's array ends at what the proof data compute for it and the scalar at the reshape
    of the result array. For any proof data that hold W whole and Y in the two halves, owe nothing, start from the
    region-entry contents, and whose invariant the launch's holdings establish and yield back. -/
theorem run_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare) (hq1 : ∀ c, (dats 0 c).q 1 = fullShare.left) (hq2 : ∀ c, (dats 0 c).q 2 = fullShare.right)
    (howed : ∀ c t, (dats 0 c).owed t = 0)
    (hA : ∀ c w, (dats 0 c).A w = V m c (arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_v1) = outScalar m c ((dats 0 c).arrAt 3 cfg0.N)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) dats () hinj 0 winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) hinj)
          (Pipeline.launchToks (Pipeline.pin (fun q => (cfgs q).toPCfg (Val := Elt F)) (fun q => (cfgs q).toPCfg_adm)) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split_arrays m (dats 0 c) (hq0 c) (hq1 c) (hq2 c) (hA c))
    (hpf := fun _ k => k.elim0)
    (X := fun c => iprop(∃ r, prngReg c r)) (Y := fun c => iprop(∃ r, prngReg c r))
    (Z := fun c => iprop((((c.tc : Thread nD τ).loc main_v1) ↦{fullShare} V m c main_v1)))
    (Z' := fun c => iprop((((c.tc : Thread nD τ).loc main_v1) ↦{fullShare} outScalar m c ((dats 0 c).arrAt 3 cfg0.N))))
    (hX := fun c => by
      rw [Pipeline.unscopedRestP_none, unscopedRest0_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_reshape m (dats 0 c) Variants.none Q')
    (QY := fun c s => s.mem ((c.tc : Thread nD τ).loc main_v1) = outScalar m c ((dats 0 c).arrAt 3 cfg0.N))
    (hY := fun c s' => by
      have h := pointsTo_read_all (Ix := Unit) (Name := ℕ) (U := UR sig nD τ) (Lvl := ℕ) ({main_v1} : Finset (Ref sig .tc)) (fun b => (c.tc : Thread nD τ).loc b)
        (fun b => StableHlo.after hostOps1 (exitVal m c ((dats 0 c).arrAt 3 cfg0.N)) (Proc.devRef .tc b)) s'
      rw [bigSep_singleton] at h
      iintro ⟨-, HU, HSI⟩
      imodintro
      ihave H := h $$ [HU HSI]
      · isplitl [HU]; · iexact HU
        iexact HSI
      icases H with ⟨%hm, HSI⟩
      isplitr; · ipureintro; exact hm main_v1 (Finset.mem_singleton_self _)
      iexact HSI)
    (hQ := fun s h c => ⟨(h c).1, (h c).2.2⟩)

end Cert.KernelIdeal.Tiles

end
-- ==== Proof.KernelRun.lean ====
/-
  The kernel program's run, read: the one write-back of the 1 × 1 result block happens at the last point and writes
  the last running sum over 2n, and that block is the whole result array; the two argument arrays are read only.
  So @main ends with the scalar at the reshape of that value and the arguments unchanged.
-/
import proofs.«135635_j21105469292703_1_alg».proof.Proof.Accumulate
import proofs.«135635_j21105469292703_1_alg».proof.Proof.Launch
import Idealize.ShloMosaic.Lib.Pipeline.Value

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point, 63, is on the grid. -/
theorem last_lt : 63 < cfg0.N := by rw [show cfg0.N = 64 from N_0]; decide

/-- The result array after the run: the running sum after the last point, over 2n. -/
abbrev lossBlock (c : Dev nD) : Buf (Elt F) ((c : Thread nD τ).loc main_v0) := k0_pay1 (sumAt m c 63 last_lt)

/-- The one write-back (at the last point) writes it, and its block is the whole array. -/
theorem final_out (c : Dev nD) : (dats m 0 c).arrAt 3 cfg0.N = lossBlock m c := by
  have hN : cfg0.N = 64 := N_0
  -- the only write-back is the last point's, and it writes the result through zero offsets
  have hG : ∀ t, (cfg0.win 3).flush t = true →
      (dats m 0 c).flushed 3 t = ((cfg0.win 3).blk t).view.read (Elt F) (lossBlock m c) := by
    intro t hf
    have h63 : t.val = 63 := by have := (flush0_3 t).mp hf; have := t.isLt; omega
    obtain rfl : t = ⟨63, last_lt⟩ := Fin.ext h63
    show (cfg0.win 3).cut (grid0.coords ⟨63, last_lt⟩) ((dats m 0 c).after 3 ⟨63, last_lt⟩) = _
    rw [after_out]
    have hz : (fun a => win0_3.index ⟨63, last_lt⟩ a * main_v0.ty.shape.size a) = fun _ => 0 :=
      funext fun a => by fin_cases a <;> decide +kernel
    exact (Memref.read_access_unit_zero (Elt F) main_v0 hz (fun a => by rw [congrFun hz a]; simp) (lossBlock m c)).symm
  -- the last point's block is the whole 1 × 1 array
  refine (dats m 0 c).arrAt_eq_of_cover 3 (lossBlock m c) hG fun i => ⟨⟨63, last_lt⟩, (flush0_3 _).mpr rfl, ?_⟩
  show i ∈ ((View.whole main_v0).slice (win0_3.rect ⟨63, last_lt⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index ⟨63, last_lt⟩ 0 * win0_3.size 0 ≤ (i 0 : Nat)
      ∧ (i 0 : Nat) < win0_3.index ⟨63, last_lt⟩ 0 * win0_3.size 0 + win0_3.xsize (grid0.coords ⟨63, last_lt⟩) 0
    rw [show win0_3.index ⟨63, last_lt⟩ 0 * win0_3.size 0 = 0 from by decide +kernel,
      show win0_3.xsize (grid0.coords ⟨63, last_lt⟩) 0 = 1 from by decide +kernel]
    omega
  | ⟨1, _⟩ =>
    show win0_3.index ⟨63, last_lt⟩ 1 * win0_3.size 1 ≤ (i 1 : Nat)
      ∧ (i 1 : Nat) < win0_3.index ⟨63, last_lt⟩ 1 * win0_3.size 1 + win0_3.xsize (grid0.coords ⟨63, last_lt⟩) 1
    rw [show win0_3.index ⟨63, last_lt⟩ 1 * win0_3.size 1 = 0 from by decide +kernel,
      show win0_3.xsize (grid0.coords ⟨63, last_lt⟩) 1 = 1 from by decide +kernel]
    omega

/-- The run, read: the scalar at the reshape of the result, both arguments unchanged. -/
theorem run_main : θ_run defs (onTc (τ := τ) (main (F := F))) ⟨m, fun _ => 0, ρ⟩ fun r => ∀ c : Dev nD,
      r.2.mem ((c.tc : Thread nD τ).loc main_v1) = outScalar m c (lossBlock m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).2, final_out],
      ((h c).1 0).trans (((dats m 0 c).arrAt_in 0 rfl _).trans ((A_eq m c 0).trans (V_W m c))),
      ((h c).1 1).trans (((dats m 0 c).arrAt_in 1 rfl _).trans ((A_eq m c 1).trans (V_Y m c)))⟩)
    (run_of m ρ (dats m) (fun c => (body_obligation m c).loose) (q_W m) (q_Yi m) (q_Yj m) (fun _ _ => rfl) (A_eq m) (hin m) (hout m))

end Cert.KernelIdeal.Tiles

end
-- ==== Proof.LossSpec.lean ====
/-
  The spectral loss as one function of the two arrays, over the extended reals.

  For a block of rows `Y` and a block of rows `Y'` (each row 64 long) the clamped squared distance of row `i` of `Y`
  and row `j` of `Y'` is  max (|y_i|² + |y'_j|² − 2 · ⟨y_i, y'_j⟩, 0);  the weighted sum of a weight block `W` is
  Σ_i Σ_j W i j · dist i j;  the loss is the weighted sum over the whole 8192 × 8192 array divided by 2n = 16384.
  The two float literals (2 and 16384) are kept as the words both programs print; only the zero word is evaluated.

  The whole weighted sum is the sum over the 64 tiles (8 block rows × 8 block columns, in row-major order) of each
  tile's weighted sum: addition on the extended reals is commutative and associative, so this needs no finiteness.
-/
import Idealize.ShloMosaic.PureOps.Ideal
import Idealize.ShloMosaic.PureOps.Ideal.Laws
import Idealize.ShloMosaic.Lib.ValueIdx
import Mathlib.Data.Fintype.BigOperators
import Mathlib.Logic.Equiv.Fin.Basic
import Mathlib.Algebra.BigOperators.Group.Finset.Sigma

noncomputable section

open scoped BigOperators

namespace Cert.Loss

open Idealize.ShloMosaic Idealize.ShloMosaic.ValueIdx

/-- The literal 2.0 of both programs. -/
def two : EReal := Ideal.ofBits .f32 0x40000000#32
/-- The literal 16384.0 = 2n of both programs. -/
def twoN : EReal := Ideal.ofBits .f32 0x46800000#32

/-- The squared norm of row `i`. -/
def rowSq {n : Nat} (Y : (⟨2, ![n, 64]⟩ : Shape).Idx → EReal) (i : Fin n) : EReal :=
  ∑ k : Fin 64, Y (ix2 i k) * Y (ix2 i k)

/-- The inner product of row `i` of `Y` and row `j` of `Y'`. -/
def inner {n n' : Nat} (Y : (⟨2, ![n, 64]⟩ : Shape).Idx → EReal) (Y' : (⟨2, ![n', 64]⟩ : Shape).Idx → EReal)
    (i : Fin n) (j : Fin n') : EReal :=
  ∑ k : Fin 64, Y (ix2 i k) * Y' (ix2 j k)

/-- The squared distance of the two rows by the polarization identity, clamped at zero. -/
def dist {n n' : Nat} (Y : (⟨2, ![n, 64]⟩ : Shape).Idx → EReal) (Y' : (⟨2, ![n', 64]⟩ : Shape).Idx → EReal)
    (i : Fin n) (j : Fin n') : EReal :=
  max ((rowSq Y i + rowSq Y' j) - two * inner Y Y' i j) 0

/-- The weighted sum of the distances over a block of weights. -/
def weighted {n n' : Nat} (W : (⟨2, ![n, n']⟩ : Shape).Idx → EReal) (Y : (⟨2, ![n, 64]⟩ : Shape).Idx → EReal)
    (Y' : (⟨2, ![n', 64]⟩ : Shape).Idx → EReal) : EReal :=
  ∑ i : Fin n, ∑ j : Fin n', W (ix2 i j) * dist Y Y' i j

/-- The loss: the whole weighted sum over 2n. -/
def loss (W : (⟨2, ![8192, 8192]⟩ : Shape).Idx → EReal) (Y : (⟨2, ![8192, 64]⟩ : Shape).Idx → EReal) : EReal :=
  Ideal.div (weighted W Y Y) twoN

/-- Block `b` (of 8) of the rows of `Y`: rows 1024 b … 1024 b + 1023. -/
def rowBlock (Y : (⟨2, ![8192, 64]⟩ : Shape).Idx → EReal) (b : Fin 8) : (⟨2, ![1024, 64]⟩ : Shape).Idx → EReal :=
  fun y => Y (ix2 (⟨1024 * b.val + (y 0).val, by have := idx2_lt0 y; have := b.isLt; omega⟩ : Fin 8192) (⟨(y 1).val, idx2_lt1 y⟩ : Fin 64))

/-- Tile (`bi`, `bj`) of `W`. -/
def tile (W : (⟨2, ![8192, 8192]⟩ : Shape).Idx → EReal) (bi bj : Fin 8) : (⟨2, ![1024, 1024]⟩ : Shape).Idx → EReal :=
  fun y => W (ix2 (⟨1024 * bi.val + (y 0).val, by have := idx2_lt0 y; have := bi.isLt; omega⟩ : Fin 8192)
    (⟨1024 * bj.val + (y 1).val, by have := idx2_lt1 y; have := bj.isLt; omega⟩ : Fin 8192))

/-- The weighted sum of tile number `s` in row-major order (`s = 8·bi + bj`); zero past the grid. -/
def tileTerm (W : (⟨2, ![8192, 8192]⟩ : Shape).Idx → EReal) (Y : (⟨2, ![8192, 64]⟩ : Shape).Idx → EReal) (s : Nat) : EReal :=
  if h : s < 64 then
    weighted (tile W ⟨s / 8, by omega⟩ ⟨s % 8, by omega⟩) (rowBlock Y ⟨s / 8, by omega⟩) (rowBlock Y ⟨s % 8, by omega⟩)
  else 0

/-- The number n * b + p lies below B * n when b < B and p < n. -/
private theorem blk_lt {B n b p : Nat} (hb : b < B) (hp : p < n) : n * b + p < B * n :=
  calc n * b + p < n * b + n := Nat.add_lt_add_left hp _
    _ = n * (b + 1) := (Nat.mul_succ n b).symm
    _ ≤ n * B := Nat.mul_le_mul_left _ hb
    _ = B * n := Nat.mul_comm _ _

/-- A sum over the N = B * n indices is the sum over the B blocks of n consecutive indices each. -/
private theorem sum_fin_blocks {M : Type*} [AddCommMonoid M] {N : Nat} (B n : Nat) (hN : N = B * n) (f : Fin N → M) :
    ∑ i, f i = ∑ b : Fin B, ∑ p : Fin n, f ⟨n * b.val + p.val, hN ▸ blk_lt b.isLt p.isLt⟩ := by
  subst hN
  rw [← Equiv.sum_comp (finProdFinEquiv (m := B) (n := n)) f, Fintype.sum_prod_type]
  refine Finset.sum_congr rfl fun b _ => Finset.sum_congr rfl fun p _ => ?_
  exact congrArg f (Fin.ext (Nat.add_comm _ _))

/-- The sum over the 64 numbers s < 64 of a function of naturals is the double sum over the pairs (bi, bj) with s = 8 * bi + bj. -/
private theorem sum_range_pairs {M : Type*} [AddCommMonoid M] (g : Nat → M) :
    ∑ s ∈ Finset.range 64, g s = ∑ bi : Fin 8, ∑ bj : Fin 8, g (8 * bi.val + bj.val) := by
  rw [← Fin.sum_univ_eq_sum_range g 64]
  exact sum_fin_blocks 8 8 rfl (fun s : Fin 64 => g s.val)

/-- An entry of a row block is the entry of the whole array in the shifted row. -/
private theorem rowBlock_ix2 (Y : (⟨2, ![8192, 64]⟩ : Shape).Idx → EReal) (b : Fin 8) (p : Fin 1024) (k : Fin 64) :
    rowBlock Y b (ix2 p k) = Y (ix2 (⟨1024 * b.val + p.val, blk_lt (B := 8) b.isLt p.isLt⟩ : Fin 8192) k) := rfl

/-- An entry of a tile is the entry of the whole weight array in the shifted row and column. -/
private theorem tile_ix2 (W : (⟨2, ![8192, 8192]⟩ : Shape).Idx → EReal) (bi bj : Fin 8) (p q : Fin 1024) :
    tile W bi bj (ix2 p q) = W (ix2 (⟨1024 * bi.val + p.val, blk_lt (B := 8) bi.isLt p.isLt⟩ : Fin 8192)
      (⟨1024 * bj.val + q.val, blk_lt (B := 8) bj.isLt q.isLt⟩ : Fin 8192)) := rfl

/-- The distance between a row of one block and a row of another is the distance between the two rows of the whole array. -/
private theorem dist_rowBlock (Y : (⟨2, ![8192, 64]⟩ : Shape).Idx → EReal) (bi bj : Fin 8) (p q : Fin 1024) :
    dist (rowBlock Y bi) (rowBlock Y bj) p q
      = dist Y Y (⟨1024 * bi.val + p.val, blk_lt (B := 8) bi.isLt p.isLt⟩ : Fin 8192)
          (⟨1024 * bj.val + q.val, blk_lt (B := 8) bj.isLt q.isLt⟩ : Fin 8192) := by
  simp only [dist, rowSq, inner, rowBlock_ix2]

/-- Tile number 8 * bi + bj is tile (bi, bj). -/
private theorem tileTerm_pair (W : (⟨2, ![8192, 8192]⟩ : Shape).Idx → EReal) (Y : (⟨2, ![8192, 64]⟩ : Shape).Idx → EReal)
    (bi bj : Fin 8) (s : Nat) (hs : s = 8 * bi.val + bj.val) :
    tileTerm W Y s = weighted (tile W bi bj) (rowBlock Y bi) (rowBlock Y bj) := by
  have hbi := bi.isLt
  have hbj := bj.isLt
  have h : s < 64 := by omega
  have e1 : (⟨s / 8, by omega⟩ : Fin 8) = bi := Fin.ext (by show s / 8 = bi.val; omega)
  have e2 : (⟨s % 8, by omega⟩ : Fin 8) = bj := Fin.ext (by show s % 8 = bj.val; omega)
  simp only [tileTerm, dif_pos h, e1, e2]

/-- The whole weighted sum is the sum of the 64 tiles' weighted sums. -/
theorem weighted_eq_sum_tiles (W : (⟨2, ![8192, 8192]⟩ : Shape).Idx → EReal) (Y : (⟨2, ![8192, 64]⟩ : Shape).Idx → EReal) :
    weighted W Y Y = ∑ s ∈ Finset.range 64, tileTerm W Y s := by
  rw [sum_range_pairs]
  simp only [tileTerm_pair W Y _ _ _ rfl]
  unfold weighted
  simp only [tile_ix2, dist_rowBlock]
  rw [sum_fin_blocks 8 1024 rfl]
  refine Finset.sum_congr rfl fun bi _ => ?_
  refine Eq.trans (Finset.sum_congr rfl fun p _ => sum_fin_blocks 8 1024 rfl _) ?_
  exact Finset.sum_comm

end Cert.Loss

end
-- ==== Proof.KernelValue.lean ====
/-
  The kernel body's three values at the ideal instance, read at the one index of a 1 × 1 block: the cleared value is 0;
  the accumulation adds the tile's weighted sum of clamped squared distances to what the scratch held; the output is
  the sum over 2n.
-/
import proofs.«135635_j21105469292703_1_alg».proof.Proof.Gen.KernelIdeal.Skeleton
import proofs.«135635_j21105469292703_1_alg».proof.Proof.LossSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileValue

open Idealize.ShloMosaic Idealize.ShloMosaic.ValueIdx Cert.KernelIdeal Cert.KernelIdeal.Gen

/-! ## Layout operations of a column, read at coordinates -/

section Layout
variable {α : Type}

/-- A vector of length `a` cast to a column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

end Layout

/-! ## The non-pointwise stages of the accumulation -/

/-- The row sums of the squares of a block are the squared norms of its rows. -/
private theorem rowSq_apply (y : FVec Ideal S1024x64 .f32) (h : S1024x64.Reduces [1] S1024) (hφ : FKind.Formats .f32)
    (hacc : (0x00000000#32 : BitVec 32) = FKind.add.neutral .f32 hφ) (p : Fin 1024) :
    multiReduction (F := Ideal) .add [1] S1024 (mulf y y) 0x00000000#32 h hφ hacc (ix1 p) = Cert.Loss.rowSq y p := by
  refine (Ideal.multiReduction_add_single (mulf y y) 0x00000000#32 h hφ hacc (ix1 p)).trans ?_
  unfold Cert.Loss.rowSq
  refine Finset.sum_congr rfl fun k _ => ?_
  have e : h.lift (ix1 p) k = ix2 p k :=
    funext fun a => Fin.ext (by match a with | ⟨0, _⟩ => rfl | ⟨1, _⟩ => rfl)
  rw [e]
  rfl

/-- The row sums of a column of row sums, cast to the one-element block: the sum over both coordinates. -/
private theorem total_apply (v : FVec Ideal S1024x1024 .f32) (h1 : S1024x1024.Reduces [1] S1024)
    (h2 : S1024.ShapeCasts S1024x1) (h3 : S1024x1.Reduces [0] S1) (h4 : S1.ShapeCasts S1x1) (hφ : FKind.Formats .f32)
    (hacc : (0x00000000#32 : BitVec 32) = FKind.add.neutral .f32 hφ) (u0 u1 : Fin 1) :
    shapeCast S1x1 (multiReduction (F := Ideal) .add [0] S1
        (shapeCast S1024x1 (multiReduction (F := Ideal) .add [1] S1024 v 0x00000000#32 h1 hφ hacc) h2)
        0x00000000#32 h3 hφ hacc) h4 (ix2 u0 u1)
      = ∑ p : Fin 1024, ∑ q : Fin 1024, v (ix2 p q) := by
  refine (shapeCast_a_1a_apply _ h4 u0 u1).trans ?_
  refine (Ideal.multiReduction_add_single _ 0x00000000#32 h3 hφ hacc (ix1 u1)).trans ?_
  refine Finset.sum_congr rfl fun p _ => ?_
  have e : h3.lift (ix1 u1) p = ix2 (p : Fin 1024) u1 :=
    funext fun a => Fin.ext (by match a with | ⟨0, _⟩ => rfl | ⟨1, _⟩ => rfl)
  rw [e]
  refine (shapeCast_a_a1_apply _ h2 p u1).trans ?_
  refine (Ideal.multiReduction_add_single v 0x00000000#32 h1 hφ hacc (ix1 p)).trans ?_
  refine Finset.sum_congr rfl fun q _ => ?_
  have e2 : h1.lift (ix1 (p : Fin 1024)) q = ix2 (p : Fin 1024) (q : Fin 1024) :=
    funext fun a => Fin.ext (by match a with | ⟨0, _⟩ => rfl | ⟨1, _⟩ => rfl)
  exact congrArg v e2

/-! ## The product of the two blocks: the operands' indices, axis by axis -/

private theorem lhs_dot_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
private theorem lhs_dot_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem rhs_dot_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem rhs_dot_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a block and the transpose of a block, read at `(p, q)`: the inner product of row `p` and row `q`. -/
private theorem inner_apply (yi yj : FVec Ideal S1024x64 .f32) (hb : FTy.bits .bf16 < FTy.bits .f32)
    (ht : S1024x64.Transposes [1, 0] S64x1024) (p q : Fin 1024) :
    matmul dot_S1024x64_S64x1024_S1024x1024_1_0_0_1_n_n none (truncf .bf16 yi hb) (transpose S64x1024 [1, 0] (truncf .bf16 yj hb) ht)
        (constant (F := Ideal) S1024x1024 .f32 0x00000000#32) (ix2 p q)
      = Cert.Loss.inner yi yj p q := by
  simp only [matmul]
  rw [Ideal.matmul_constant_zero_apply, ← Equiv.sum_comp (ValueIdx.contrEquiv1 dot_S1024x64_S64x1024_S1024x1024_1_0_0_1_n_n 64 rfl rfl).symm]
  unfold Cert.Loss.inner
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]
  exact congrArg (yi (ix2 p k) * ·) (transpose_ix2_apply (truncf .bf16 yj hb) ht k q)

/-! ## The squared distance of two rows, as the body computes it -/

/-- The clamped polarization expression of the body, read at `(p, q)`: the clamped squared distance of row `p` of the
    first block and row `q` of the second. -/
private theorem dist_apply (yi yj : FVec Ideal S1024x64 .f32) (h1 : S1024x64.Reduces [1] S1024) (h2 : S1024.ShapeCasts S1024x1)
    (h3 : S1024x1.Transposes [1, 0] S1x1024) (hb : FTy.bits .bf16 < FTy.bits .f32) (ht : S1024x64.Transposes [1, 0] S64x1024)
    (h4 : S1024x1.Broadcasts S1024x1024) (h5 : S1x1024.Broadcasts S1024x1024) (hφ : FKind.Formats .f32)
    (hacc : (0x00000000#32 : BitVec 32) = FKind.add.neutral .f32 hφ) (p q : Fin 1024) :
    maximumf
        (subf
          (addf
            (broadcastTo S1024x1024
              (shapeCast S1024x1 (multiReduction (F := Ideal) .add [1] S1024 (mulf yi yi) 0x00000000#32 h1 hφ hacc) h2) h4)
            (broadcastTo S1024x1024
              (transpose S1x1024 [1, 0]
                (shapeCast S1024x1 (multiReduction (F := Ideal) .add [1] S1024 (mulf yj yj) 0x00000000#32 h1 hφ hacc) h2) h3) h5))
          (mulf (broadcast S1024x1024 (FloatOps.ofBits (F := Ideal) .f32 0x40000000#32))
            (matmul dot_S1024x64_S64x1024_S1024x1024_1_0_0_1_n_n none (truncf .bf16 yi hb) (transpose S64x1024 [1, 0] (truncf .bf16 yj hb) ht)
              (constant (F := Ideal) S1024x1024 .f32 0x00000000#32))))
        (broadcast S1024x1024 (FloatOps.ofBits (F := Ideal) .f32 0x00000000#32)) (ix2 p q)
      = Cert.Loss.dist yi yj p q := by
  have e1 : broadcastTo S1024x1024
      (shapeCast S1024x1 (multiReduction (F := Ideal) .add [1] S1024 (mulf yi yi) 0x00000000#32 h1 hφ hacc) h2) h4 (ix2 p q)
        = Cert.Loss.rowSq yi p :=
    (broadcastTo_a1_ab_apply (by decide) _ h4 p q).trans
      ((shapeCast_a_a1_apply _ h2 p 0).trans (rowSq_apply yi h1 hφ hacc p))
  have e2 : broadcastTo S1024x1024
      (transpose S1x1024 [1, 0]
        (shapeCast S1024x1 (multiReduction (F := Ideal) .add [1] S1024 (mulf yj yj) 0x00000000#32 h1 hφ hacc) h2) h3) h5 (ix2 p q)
        = Cert.Loss.rowSq yj q :=
    (broadcastTo_1b_ab_apply _ h5 p q).trans
      ((transpose_ix2_apply _ h3 (0 : Fin 1) q).trans
        ((shapeCast_a_a1_apply _ h2 q 0).trans (rowSq_apply yj h1 hφ hacc q)))
  have e3 := inner_apply yi yj hb ht p q
  show max ((_ + _) - Ideal.ofBits .f32 0x40000000#32 * _) (Ideal.ofBits .f32 0x00000000#32) = _
  rw [e1, e2, e3, Ideal.ofBits_zero_f32]
  rfl

/-! ## The three values -/

/-- The cleared scratch holds zero. -/
theorem cleared_apply (j : S1x1.Idx) : k0_pay2 (F := Ideal) j = 0 := by
  unfold k0_pay2
  rw [shapeCast_self]
  exact Ideal.ofBits_zero_f32

/-- The accumulation: what the scratch held plus this tile's weighted sum. -/
theorem accumulate_apply (yi yj : Vec Ideal S1024x64 .f32) (w : Vec Ideal S1024x1024 .f32) (a : Vec Ideal S1x1 .f32) (j : S1x1.Idx) :
    k0_pay3 yi yj w a j = a j + Cert.Loss.weighted w yi yj := by
  obtain ⟨u0, u1, rfl⟩ : ∃ (u0 u1 : Fin 1), j = ix2 u0 u1 := ⟨j 0, j 1, eq_ix2 j⟩
  unfold k0_pay3
  rw [shapeCast_self]
  refine congrArg (a (ix2 u0 u1) + ·) ?_
  refine (total_apply _ _ _ _ _ _ _ u0 u1).trans ?_
  unfold Cert.Loss.weighted
  refine Finset.sum_congr rfl fun p _ => Finset.sum_congr rfl fun q _ => ?_
  exact congrArg (w (ix2 p q) * ·) (dist_apply yi yj _ _ _ _ _ _ _ _ _ p q)

/-- The output: the sum over 2n. -/
theorem quotient_apply (x : Vec Ideal S1x1 .f32) (j : S1x1.Idx) :
    k0_pay1 x j = Ideal.div (x j) Cert.Loss.twoN := by
  unfold k0_pay1
  rfl

end Cert.KernelIdeal.TileValue

end
-- ==== Proof.Blocks.lean ====
/-
  The input blocks the kernel loads at point t, as parts of the two arrays: the grid walks the tiles of W in row-major
  order, so point t reads tile (t / 8, t % 8) of W, row block t / 8 of Y and row block t % 8 of Y (a block's element
  sits at block index × block size + its coordinate inside the block).
-/
import proofs.«135635_j21105469292703_1_alg».proof.Proof.GridCases
import proofs.«135635_j21105469292703_1_alg».proof.Proof.LossSpec
import Idealize.ShloMosaic.Lib.Pipeline.Value

set_option maxRecDepth 16384

noncomputable section

namespace Cert.KernelIdeal.Tiles

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The grid has 64 points. -/
theorem lt64 (t : Fin cfg0.N) : t.val < 64 := lt_of_lt_of_eq t.isLt N_0

/-- The three input windows' block indices at point t, decided once over the grid: the tile window walks
    (t / 8, t % 8), the row window sits at block t / 8 and the column window at block t % 8 of Y's rows, both at
    column block 0. -/
private theorem blockIndices : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = t.val % 8 ∧ win0_2.index t (1 : Fin 2) = 0 :=
  (by decide +kernel : ∀ t : Fin grid0.N, _)

/-- Point t's tile of W. -/
theorem wTile_eq (c : Dev nD) (t : Fin cfg0.N) :
    wTile (F := Ideal) m c t
      = Cert.Loss.tile (m ((c : Thread nD τ).loc main_arg0)) ⟨t.val / 8, by have := lt64 t; omega⟩ ⟨t.val % 8, by omega⟩ := by
  obtain ⟨e0, e1, -, -, -, -⟩ := blockIndices t
  funext y
  show V m c main_arg0 (((cfg0.win 0).blk t).view.emb y) = _
  unfold Cert.Loss.tile
  rw [V_W]
  refine congrArg _ (funext fun a => Fin.ext ?_)
  have h0 := idx2_lt0 y
  have h1 := idx2_lt1 y
  match a with
  | ⟨0, _⟩ =>
    show win0_0.index t (0 : Fin 2) * 1024 + 1 * (y 0).val = 1024 * (t.val / 8) + (y 0).val
    omega
  | ⟨1, _⟩ =>
    show win0_0.index t (1 : Fin 2) * 1024 + 1 * (y 1).val = 1024 * (t.val % 8) + (y 1).val
    omega

/-- Point t's row block of Y (window 1: block t / 8). -/
theorem yRows_eq (c : Dev nD) (t : Fin cfg0.N) :
    yRows (F := Ideal) m c t = Cert.Loss.rowBlock (m ((c : Thread nD τ).loc main_arg1)) ⟨t.val / 8, by have := lt64 t; omega⟩ := by
  obtain ⟨-, -, e0, e1, -, -⟩ := blockIndices t
  funext y
  show V m c main_arg1 (((cfg0.win 1).blk t).view.emb y) = _
  unfold Cert.Loss.rowBlock
  rw [V_Y]
  refine congrArg _ (funext fun a => Fin.ext ?_)
  have h0 := idx2_lt0 y
  have h1 := idx2_lt1 y
  match a with
  | ⟨0, _⟩ =>
    show win0_1.index t (0 : Fin 2) * 1024 + 1 * (y 0).val = 1024 * (t.val / 8) + (y 0).val
    omega
  | ⟨1, _⟩ =>
    show win0_1.index t (1 : Fin 2) * 64 + 1 * (y 1).val = (y 1).val
    omega

/-- Point t's column block of Y (window 2: block t % 8). -/
theorem yCols_eq (c : Dev nD) (t : Fin cfg0.N) :
    yCols (F := Ideal) m c t = Cert.Loss.rowBlock (m ((c : Thread nD τ).loc main_arg1)) ⟨t.val % 8, by omega⟩ := by
  obtain ⟨-, -, -, -, e0, e1⟩ := blockIndices t
  funext y
  show V m c main_arg1 (((cfg0.win 2).blk t).view.emb y) = _
  unfold Cert.Loss.rowBlock
  rw [V_Y]
  refine congrArg _ (funext fun a => Fin.ext ?_)
  have h0 := idx2_lt0 y
  have h1 := idx2_lt1 y
  match a with
  | ⟨0, _⟩ =>
    show win0_2.index t (0 : Fin 2) * 1024 + 1 * (y 0).val = 1024 * (t.val % 8) + (y 0).val
    omega
  | ⟨1, _⟩ =>
    show win0_2.index t (1 : Fin 2) * 64 + 1 * (y 1).val = (y 1).val
    omega

end Cert.KernelIdeal.Tiles

end
-- ==== Proof.KernelLoss.lean ====
/-
  The kernel program's scalar result is the loss. At the ideal instance the running sum after point n is the sum of the
  first n + 1 tiles' weighted sums (each step adds one tile's, the cleared value is zero); the 64 tiles' weighted sums
  add up to the whole weighted sum; the output is that over 2n, and the reshape of a 1 × 1 array to a scalar keeps its
  one entry.
-/
import proofs.«135635_j21105469292703_1_alg».proof.Proof.KernelRun
import proofs.«135635_j21105469292703_1_alg».proof.Proof.KernelValue
import proofs.«135635_j21105469292703_1_alg».proof.Proof.Blocks
import proofs.«135635_j21105469292703_1_alg».proof.Proof.LossSpec

set_option maxRecDepth 16384

noncomputable section

open scoped BigOperators

namespace Cert.KernelIdeal.Tiles

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- One tile's weighted sum, over the blocks the kernel loads at point t, is the term of tile number t. -/
private theorem tile_weighted (c : Dev nD) (t : Fin cfg0.N) :
    Cert.Loss.weighted (wTile (F := Ideal) m c t) (yRows (F := Ideal) m c t) (yCols (F := Ideal) m c t)
      = Cert.Loss.tileTerm (m ((c : Thread nD τ).loc main_arg0)) (m ((c : Thread nD τ).loc main_arg1)) t.val := by
  rw [wTile_eq, yRows_eq, yCols_eq]
  unfold Cert.Loss.tileTerm
  rw [dif_pos (lt64 t)]

/-- The running sum after point n is the sum of the weighted sums of tiles 0 … n. -/
theorem sumAt_eq (c : Dev nD) (n : ℕ) (h : n < cfg0.N) (j : S1x1.Idx) :
    sumAt (F := Ideal) m c n h j
      = ∑ s ∈ Finset.range (n + 1), Cert.Loss.tileTerm (m ((c : Thread nD τ).loc main_arg0)) (m ((c : Thread nD τ).loc main_arg1)) s := by
  induction n with
  | zero =>
    rw [Finset.sum_range_one]
    refine (congrFun (sumAt_zero m c h) j).trans ?_
    refine (TileValue.accumulate_apply _ _ _ _ j).trans ?_
    rw [TileValue.cleared_apply, zero_add]
    exact tile_weighted m c ⟨0, h⟩
  | succ n ih =>
    rw [Finset.sum_range_succ, ← ih (Nat.lt_of_succ_lt h)]
    refine (congrFun (sumAt_succ m c n h) j).trans ?_
    refine (TileValue.accumulate_apply _ _ _ _ j).trans ?_
    exact congrArg (_ + ·) (tile_weighted m c ⟨n + 1, h⟩)

/-- The scalar the program returns is the loss of its two arguments. -/
theorem kernel_loss (c : Dev nD) :
    outScalar (F := Ideal) m c (lossBlock m c)
      = fun _ => Cert.Loss.loss (m ((c : Thread nD τ).loc main_arg0)) (m ((c : Thread nD τ).loc main_arg1)) := by
  funext i
  unfold outScalar
  simp only [hostOps1, StableHlo.after_cons, StableHlo.after_nil]
  rw [StableHlo.reshape_result']
  show shapeCast S_ (exitVal m c (lossBlock m c) (Proc.devRef .tc main_v0)) shapeCasts_S1x1_S_ i = _
  unfold exitVal
  rw [Function.update_self]
  refine (shapeCast_apply (lossBlock m c) shapeCasts_S1x1_S_ i (ix2 (0 : Fin 1) (0 : Fin 1)) ?_).trans ?_
  · show (S1x1.rowMajor (ix2 (0 : Fin 1) (0 : Fin 1))).val = (S_.rowMajor i).val
    rw [Shape.rowMajor_val_two]
    exact (Shape.rowMajorPi_zero _ i).symm
  refine (TileValue.quotient_apply _ _).trans ?_
  rw [sumAt_eq, ← Cert.Loss.weighted_eq_sum_tiles]
  rfl

end Cert.KernelIdeal.Tiles

end
-- ==== Proof.Reference.lean ====
/-
  The reference program's result is the loss: its last stage, read at the scalar's one index, is the whole
  weighted sum of clamped squared distances over 2n.
-/
import proofs.«135635_j21105469292703_1_alg».proof.Proof.Gen.ReferenceIdeal.Read
import proofs.«135635_j21105469292703_1_alg».proof.Proof.LossSpec

noncomputable section

open scoped BigOperators

namespace Cert.ReferenceIdeal.RefLoss

open Idealize.ShloMosaic Idealize.ShloMosaic.ValueIdx Cert.ReferenceIdeal Cert.ReferenceIdeal.Gen Cert.ReferenceIdeal.Read

/-- The row-norm stage at row `a` is the squared norm of row `a`: the zero initial value drops out and each
    term of the sum is the square of one entry of the row. -/
private theorem rowNorm_at (Y : (⟨S8192x64, .f32⟩ : BufTy).Contents (Elt Ideal)) (a : Fin 8192) :
    val_main_v1 (F := Ideal) Y (ix1 a) = Cert.Loss.rowSq Y a := by
  rw [val_main_v1_apply, val_main_cst_apply, Ideal.ofBits_def, Ideal.ofBits_zero_f32, zero_add]
  unfold Cert.Loss.rowSq
  refine Finset.sum_congr rfl fun k _ => ?_
  have e : idx_main_v1 (ix1 a) k = ix2 a k :=
    funext fun d => Fin.ext (by match d with | ⟨0, _⟩ => rfl | ⟨1, _⟩ => rfl)
  rw [val_main_v0_apply, Ideal.mulf_def, e]

/-- The column broadcast of the row norms at (`a`, `b`) is the squared norm of row `a`. -/
private theorem bcastRow_at (Y : (⟨S8192x64, .f32⟩ : BufTy).Contents (Elt Ideal)) (a b : Fin 8192) :
    val_main_v4 (F := Ideal) Y (ix2 a b) = Cert.Loss.rowSq Y a := by
  have e : idx_main_v2 (idx_main_v4 (ix2 a b)) = ix1 a :=
    funext fun d => Fin.ext (by match d with | ⟨0, _⟩ => rfl)
  rw [val_main_v4_apply, val_main_v2_apply, e, rowNorm_at]

/-- The row broadcast of the row norms at (`a`, `b`) is the squared norm of row `b`. -/
private theorem bcastCol_at (Y : (⟨S8192x64, .f32⟩ : BufTy).Contents (Elt Ideal)) (a b : Fin 8192) :
    val_main_v5 (F := Ideal) Y (ix2 a b) = Cert.Loss.rowSq Y b := by
  have e : idx_main_v3 (idx_main_v5 (ix2 a b)) = ix1 b :=
    funext fun d => Fin.ext (by match d with | ⟨0, _⟩ => rfl)
  rw [val_main_v5_apply, val_main_v3_apply, e, rowNorm_at]

/-- The product with the transpose at (`a`, `b`) is the inner product of rows `a` and `b`. -/
private theorem gram_at (Y : (⟨S8192x64, .f32⟩ : BufTy).Contents (Elt Ideal)) (a b : Fin 8192) :
    val_main_v8 (F := Ideal) Y (ix2 a b) = Cert.Loss.inner Y Y a b := by
  rw [val_main_v8_apply]
  unfold Cert.Loss.inner
  refine Finset.sum_congr rfl fun k _ => ?_
  have el : lidx_main_v8 (ix2 a b) k = ix2 a k :=
    funext fun d => Fin.ext (by match d with | ⟨0, _⟩ => rfl | ⟨1, _⟩ => rfl)
  have er : idx_main_v7 (ridx_main_v8 (ix2 a b) k) = ix2 b k :=
    funext fun d => Fin.ext (by match d with | ⟨0, _⟩ => rfl | ⟨1, _⟩ => rfl)
  rw [val_main_v7_apply, el, er]

/-- The clamped stage at (`a`, `b`) is the clamped squared distance of rows `a` and `b`. -/
private theorem clamp_at (Y : (⟨S8192x64, .f32⟩ : BufTy).Contents (Elt Ideal)) (a b : Fin 8192) :
    val_main_v13 (F := Ideal) Y (ix2 a b) = Cert.Loss.dist Y Y a b := by
  rw [val_main_v13_apply, val_main_v12_apply, val_main_cst_1_apply, val_main_v11_apply, val_main_v10_apply,
    val_main_v9_apply, val_main_cst_0_apply, val_main_v6_apply, bcastRow_at, bcastCol_at, gram_at]
  simp only [Ideal.maximumf_def, Ideal.subf_def, Ideal.addf_def, Ideal.mulf_def, Ideal.ofBits_def,
    Ideal.ofBits_zero_f32]
  unfold Cert.Loss.dist Cert.Loss.two
  rfl

/-- The integrand of the total sum at (`a`, `b`): the weight times the clamped squared distance. -/
private theorem integrand_at (W : (⟨S8192x8192, .f32⟩ : BufTy).Contents (Elt Ideal))
    (Y : (⟨S8192x64, .f32⟩ : BufTy).Contents (Elt Ideal)) (a b : Fin 8192) :
    val_main_v14 (F := Ideal) W Y (ix2 a b) = W (ix2 a b) * Cert.Loss.dist Y Y a b := by
  rw [val_main_v14_apply, Ideal.mulf_def, clamp_at]

/-- The total-sum stage is the weighted sum of the clamped squared distances. -/
private theorem total_eq (W : (⟨S8192x8192, .f32⟩ : BufTy).Contents (Elt Ideal))
    (Y : (⟨S8192x64, .f32⟩ : BufTy).Contents (Elt Ideal)) (i : S_.Idx) :
    val_main_v15 (F := Ideal) W Y i = Cert.Loss.weighted W Y Y := by
  rw [val_main_v15_apply, val_main_cst_2_apply, Ideal.ofBits_def, Ideal.ofBits_zero_f32, zero_add, sum_idx2]
  unfold Cert.Loss.weighted
  refine Finset.sum_congr rfl fun a _ => Finset.sum_congr rfl fun b _ => ?_
  exact integrand_at W Y a b

/-- The reference's scalar result is the loss of its two arguments. -/
theorem reference_eq (W : (⟨S8192x8192, .f32⟩ : BufTy).Contents (Elt Ideal)) (Y : (⟨S8192x64, .f32⟩ : BufTy).Contents (Elt Ideal)) :
    val_main_v16 (F := Ideal) W Y = fun _ => Cert.Loss.loss W Y := by
  funext i
  rw [val_main_v16_apply, Ideal.hostDivf_def, total_eq, val_main_cst_3_apply, Ideal.ofBits_def]
  unfold Cert.Loss.loss Cert.Loss.twoN
  rfl

end Cert.ReferenceIdeal.RefLoss

end
-- ==== Proof.lean ====
/-
  The certificate of the spectral-loss kernel against its jnp reference.

  Both programs compute  loss(W, Y) = ( Σ_i Σ_j W_ij · max(|y_i|² + |y_j|² − 2⟨y_i, y_j⟩, 0) ) / 2n  with n = 8192.
  The kernel walks the 8 × 8 tiles of W, rebuilds each tile of squared distances from a row block and a column block of
  Y, keeps the running sum of the tiles' weighted sums in a 1 × 1 scratch and divides by 2n at the last tile; the reference
  forms the whole 8192 × 8192 matrix of distances and sums it at once. Over the extended reals the two agree because
  addition is commutative and associative: the whole sum is the sum of the 64 tiles' sums, with no appeal to finiteness.

  The three frames: each kernel program's run (the region followed by the reshape of its result) leaves both argument
  arrays unchanged — W is held whole by its one window, Y in two halves by the two windows that read it —, and the
  reference is a straight line of host operations. The idealization rewrote nothing, so `preserves` is `True`.
-/
import proofs.«135635_j21105469292703_1_alg».proof.Defs
import proofs.«135635_j21105469292703_1_alg».proof.Proof.Gen.Kernel
import proofs.«135635_j21105469292703_1_alg».proof.Proof.Gen.KernelIdeal
import proofs.«135635_j21105469292703_1_alg».proof.Proof.Gen.ReferenceIdeal
import proofs.«135635_j21105469292703_1_alg».proof.Proof.Gen.Pre_finite_inputs
import proofs.«135635_j21105469292703_1_alg».proof.Proof.Gen.ReferenceIdeal.Run
import proofs.«135635_j21105469292703_1_alg».proof.Proof.BitsKernelRun
import proofs.«135635_j21105469292703_1_alg».proof.Proof.KernelLoss
import proofs.«135635_j21105469292703_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves W and Y as they were. -/
theorem frame_kernel : Cert.frame_Kernel := fun m ρ _ =>
  (θ_run Cert.Kernel.defs _ _).mono (fun _ h c => ⟨(h c).2.1, (h c).2.2⟩) (Cert.Kernel.Tiles.run_main (F := Bits) m ρ)

/-- So does the idealized kernel. -/
theorem frame_kernelIdeal : Cert.frame_KernelIdeal := fun m ρ _ =>
  (θ_run Cert.KernelIdeal.defs _ _).mono (fun _ h c => ⟨(h c).2.1, (h c).2.2⟩) (Cert.KernelIdeal.Tiles.run_main (F := Ideal) m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the loss of their (agreeing) arguments. -/
theorem algebraic : Cert.algebraic_KernelIdeal_ReferenceIdeal := by
  intro m ρ m' ρ' _ hagree
  refine ⟨fun c => fun _ => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Tiles.kernel_loss m c), (h c).2.1, (h c).2.2⟩)
      (Cert.KernelIdeal.Tiles.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefLoss.reference_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
